-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x19 : Shape := ⟨2, ![16, 19]⟩
abbrev S16x1024x2048 : Shape := ⟨3, ![16, 1024, 2048]⟩
abbrev S_ : Shape := ⟨0, ![]⟩

class Facts : Prop where
  bcast_S_S16x19 : S_.BroadcastsInDim S16x19 (![] : Fin 0 → Fin S16x19.rank)
  reducesTo_S16x19_S_d0_1 : S16x19.ReducesTo [0, 1] S_
  h_S_ : 0 < S_.numel
  bcast_S_S16x1024x2048 : S_.BroadcastsInDim S16x1024x2048 (![] : Fin 0 → Fin S16x1024x2048.rank)
  reducesTo_S16x1024x2048_S_d0_1_2 : S16x1024x2048.ReducesTo [0, 1, 2] S_

variable [Facts]

def fn {F : FTy → Type} [FloatOps F] (main_arg0 : FVec F S16x19 .f32) (main_arg1 : IVec S16x1024x2048 32) : IVec S_ 1 :=
  let main_v0 : FVec F S16x19 .f32 := Host.absf main_arg0
  let main_cst : FVec F S_ .f32 := constant S_ .f32 0x7F800000#32
  let main_v1 : FVec F S16x19 .f32 := broadcastInDim S16x19 ![] bcast_S_S16x19 main_cst
  let main_v2 : IVec S16x19 1 := cmpf .olt main_v0 main_v1
  let main_c : IVec S_ 1 := constantI S_ 1 1#1
  let main_v3 : IVec S_ 1 := (fun x v => Host.reduce IntOp.andi x v reducesTo_S16x19_S_d0_1 h_S_) main_v2 main_c
  let main_c_0 : IVec S_ 32 := constantI S_ 32 0#32
  let main_v4 : IVec S16x1024x2048 32 := broadcastInDim S16x1024x2048 ![] bcast_S_S16x1024x2048 main_c_0
  let main_v5 : IVec S16x1024x2048 1 := cmpi .sge main_arg1 main_v4
  let main_c_1 : IVec S_ 32 := constantI S_ 32 19#32
  let main_v6 : IVec S16x1024x2048 32 := broadcastInDim S16x1024x2048 ![] bcast_S_S16x1024x2048 main_c_1
  let main_v7 : IVec S16x1024x2048 1 := cmpi .slt main_arg1 main_v6
  let main_v8 : IVec S16x1024x2048 1 := andi main_v5 main_v7
  let main_c_2 : IVec S_ 1 := constantI S_ 1 1#1
  let main_v9 : IVec S_ 1 := (fun x v => Host.reduce IntOp.andi x v reducesTo_S16x1024x2048_S_d0_1_2 h_S_) main_v8 main_c_2
  let main_v10 : IVec S_ 1 := andi main_v3 main_v9
  main_v10
-- ==== Kernel.lean ====
abbrev S16x19 : Shape := ⟨2, ![16, 19]⟩
abbrev S16x1024x2048 : Shape := ⟨3, ![16, 1024, 2048]⟩
abbrev S16x1x19 : Shape := ⟨3, ![16, 1, 19]⟩
abbrev S1x1x19 : Shape := ⟨3, ![1, 1, 19]⟩
abbrev S1x256x2048 : Shape := ⟨3, ![1, 256, 2048]⟩
abbrev S1x1 : Shape := ⟨2, ![1, 1]⟩
abbrev S256x2048 : Shape := ⟨2, ![256, 2048]⟩
abbrev S128x2048 : Shape := ⟨2, ![128, 2048]⟩
abbrev S64x2048 : Shape := ⟨2, ![64, 2048]⟩
abbrev S32x2048 : Shape := ⟨2, ![32, 2048]⟩
abbrev S16x2048 : Shape := ⟨2, ![16, 2048]⟩
abbrev S8x2048 : Shape := ⟨2, ![8, 2048]⟩
abbrev S4x2048 : Shape := ⟨2, ![4, 2048]⟩
abbrev S2x2048 : Shape := ⟨2, ![2, 2048]⟩
abbrev S1x2048 : Shape := ⟨2, ![1, 2048]⟩
abbrev S1x1024 : Shape := ⟨2, ![1, 1024]⟩
abbrev S1x512 : Shape := ⟨2, ![1, 512]⟩
abbrev S1x256 : Shape := ⟨2, ![1, 256]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S1x8 : Shape := ⟨2, ![1, 8]⟩
abbrev S1x4 : Shape := ⟨2, ![1, 4]⟩
abbrev S1x2 : Shape := ⟨2, ![1, 2]⟩
abbrev S1x19 : Shape := ⟨2, ![1, 19]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S16x19, .f32⟩
  | .hbm, ⟨1, _⟩ => ⟨S16x1024x2048, .i32⟩
  | .hbm, ⟨2, _⟩ => ⟨S16x1x19, .f32⟩
  | .hbm, ⟨3, _⟩ => ⟨S16x1x19, .f32⟩
  | .hbm, ⟨4, _⟩ => ⟨S16x19, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1x19, .f32⟩
  | .local _ .vmem, ⟨1, _⟩ => ⟨S1x1x19, .f32⟩
  | .local _ .vmem, ⟨2, _⟩ => ⟨S1x256x2048, .i32⟩
  | .local _ .vmem, ⟨3, _⟩ => ⟨S1x256x2048, .i32⟩
  | .local _ .vmem, ⟨4, _⟩ => ⟨S1x1x19, .f32⟩
  | .local _ .vmem, ⟨5, _⟩ => ⟨S1x1x19, .f32⟩
  | .local _ .vmem, ⟨6, _⟩ => ⟨S1x1, .i32⟩
  | _, _ => ⟨S16x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v69 : BitVec 1 := Scalar.cmpi .eq arg1 c3_i32
  let v70 : BitVec 32 := Scalar.extui v69
  let c0_i32_7 : BitVec 32 := 0#32
  let v71 : BitVec 1 := Scalar.cmpi .ne v70 c0_i32_7
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S16x19_S16x1x19_0_2 : S16x19.BroadcastsInDim S16x1x19 (![0, 2] : Fin 2 → Fin S16x1x19.rank)
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  slices_S256x2048_o0_0_S128x2048 : S256x2048.Slices ![0, 0] S128x2048
  slices_S256x2048_o128_0_S128x2048 : S256x2048.Slices ![128, 0] S128x2048
  slices_S128x2048_o0_0_S64x2048 : S128x2048.Slices ![0, 0] S64x2048
  slices_S128x2048_o64_0_S64x2048 : S128x2048.Slices ![64, 0] S64x2048
  slices_S64x2048_o0_0_S32x2048 : S64x2048.Slices ![0, 0] S32x2048
  slices_S64x2048_o32_0_S32x2048 : S64x2048.Slices ![32, 0] S32x2048
  slices_S32x2048_o0_0_S16x2048 : S32x2048.Slices ![0, 0] S16x2048
  slices_S32x2048_o16_0_S16x2048 : S32x2048.Slices ![16, 0] S16x2048
  slices_S16x2048_o0_0_S8x2048 : S16x2048.Slices ![0, 0] S8x2048
  slices_S16x2048_o8_0_S8x2048 : S16x2048.Slices ![8, 0] S8x2048
  slices_S8x2048_o0_0_S4x2048 : S8x2048.Slices ![0, 0] S4x2048
  slices_S8x2048_o4_0_S4x2048 : S8x2048.Slices ![4, 0] S4x2048
  slices_S4x2048_o0_0_S2x2048 : S4x2048.Slices ![0, 0] S2x2048
  slices_S4x2048_o2_0_S2x2048 : S4x2048.Slices ![2, 0] S2x2048
  slices_S2x2048_o0_0_S1x2048 : S2x2048.Slices ![0, 0] S1x2048
  slices_S2x2048_o1_0_S1x2048 : S2x2048.Slices ![1, 0] S1x2048
  slices_S1x2048_o0_0_S1x1024 : S1x2048.Slices ![0, 0] S1x1024
  slices_S1x2048_o0_1024_S1x1024 : S1x2048.Slices ![0, 1024] S1x1024
  slices_S1x1024_o0_0_S1x512 : S1x1024.Slices ![0, 0] S1x512
  slices_S1x1024_o0_512_S1x512 : S1x1024.Slices ![0, 512] S1x512
  slices_S1x512_o0_0_S1x256 : S1x512.Slices ![0, 0] S1x256
  slices_S1x512_o0_256_S1x256 : S1x512.Slices ![0, 256] S1x256
  slices_S1x256_o0_0_S1x128 : S1x256.Slices ![0, 0] S1x128
  slices_S1x256_o0_128_S1x128 : S1x256.Slices ![0, 128] S1x128
  slices_S1x128_o0_0_S1x64 : S1x128.Slices ![0, 0] S1x64
  slices_S1x128_o0_64_S1x64 : S1x128.Slices ![0, 64] S1x64
  slices_S1x64_o0_0_S1x32 : S1x64.Slices ![0, 0] S1x32
  slices_S1x64_o0_32_S1x32 : S1x64.Slices ![0, 32] S1x32
  slices_S1x32_o0_0_S1x16 : S1x32.Slices ![0, 0] S1x16
  slices_S1x32_o0_16_S1x16 : S1x32.Slices ![0, 16] S1x16
  slices_S1x16_o0_0_S1x8 : S1x16.Slices ![0, 0] S1x8
  slices_S1x16_o0_8_S1x8 : S1x16.Slices ![0, 8] S1x8
  slices_S1x8_o0_0_S1x4 : S1x8.Slices ![0, 0] S1x4
  slices_S1x8_o0_4_S1x4 : S1x8.Slices ![0, 4] S1x4
  slices_S1x4_o0_0_S1x2 : S1x4.Slices ![0, 0] S1x2
  slices_S1x4_o0_2_S1x2 : S1x4.Slices ![0, 2] S1x2
  slices_S1x2_o0_0_S1x1 : S1x2.Slices ![0, 0] S1x1
  slices_S1x2_o0_1_S1x1 : S1x2.Slices ![0, 1] S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S1x19_d1_w32 : S1x19.Iotas .tc 32 [1]
  broadcasts_S1x1_S1x19 : S1x1.Broadcasts S1x19
  inb_S1x1x19_S1x1x19_0_0_0 : ∀ a, (![0, 0, 0] : Fin 3 → Nat) a + S1x1x19.size a ≤ S1x1x19.size a
  h_S1x1x19 : 0 < S1x1x19.numel
  shapeCasts_S1x1x19_S1x19 : S1x1x19.ShapeCasts S1x19
  shapeCasts_S1x19_S1x1x19 : S1x19.ShapeCasts S1x1x19
  shapeCasts_S16x1x19_S16x19 : S16x1x19.ShapeCasts S16x19
  reducesTo_S16x19_S_d0_1 : S16x19.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x19.size a ≤ S16x1x19.size a
  hwx0_0 : ∀ i : grid0.Coords, EltTy.bits .f32 = 32 ∨ (Rect.block (s := S16x1x19) S1x1x19.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S16x1024x2048.size a
  hwx0_1 : ∀ i : grid0.Coords, EltTy.bits .i32 = 32 ∨ (Rect.block (s := S16x1024x2048) S1x256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x19.size a ≤ S16x1x19.size a
  hwx0_2 : ∀ i : grid0.Coords, EltTy.bits .f32 = 32 ∨ (Rect.block (s := S16x1x19) S1x1x19.size (cc0_transform_2 i) (hinb0_2 i)).WholeWords (EltTy.packing .f32)

variable [Facts₀]

abbrev win0_0 : Pipeline.Window sig grid0 :=
  Pipeline.Window.ofSpec (Memref.whole main_v0) S1x1x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x19.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x19 : Shape := ⟨2, ![16, 19]⟩
abbrev S16x1024x2048 : Shape := ⟨3, ![16, 1024, 2048]⟩
abbrev S16x2097152 : Shape := ⟨2, ![16, 2097152]⟩
abbrev S16 : Shape := ⟨1, ![16]⟩
abbrev S16x1 : Shape := ⟨2, ![16, 1]⟩
abbrev S_ : Shape := ⟨0, ![]⟩
abbrev S16x2097152x1 : Shape := ⟨3, ![16, 2097152, 1]⟩
abbrev S16x2097152x2 : Shape := ⟨3, ![16, 2097152, 2]⟩

abbrev nBuf : Space → Nat
  | .hbm => 76
  | .vmem => 0
  | .smem => 0
  | _ => 0

abbrev bufTy : (tb : Table) → Fin (tcTables nBuf tb) → BufTy
  | .hbm, ⟨0, _⟩ => ⟨S16x19, .f32⟩
  | .hbm, ⟨1, _⟩ => ⟨S16x1024x2048, .i32⟩
  | .hbm, ⟨2, _⟩ => ⟨S16x2097152, .i32⟩
  | .hbm, ⟨3, _⟩ => ⟨S16, .i32⟩
  | .hbm, ⟨4, _⟩ => ⟨S16x1, .i32⟩
  | .hbm, ⟨5, _⟩ => ⟨S_, .i32⟩
  | .hbm, ⟨6, _⟩ => ⟨S16x19, .i32⟩
  | .hbm, ⟨7, _⟩ => ⟨S_, .i32⟩
  | .hbm, ⟨8, _⟩ => ⟨S16x1, .i32⟩
  | .hbm, ⟨9, _⟩ => ⟨S16x1, .i1⟩
  | .hbm, ⟨10, _⟩ => ⟨S_, .i32⟩
  | .hbm, ⟨11, _⟩ => ⟨S16x1, .i32⟩
  | .hbm, ⟨12, _⟩ => ⟨S16x1, .i32⟩
  | .hbm, ⟨13, _⟩ => ⟨S16x1, .i32⟩
  | .hbm, ⟨14, _⟩ => ⟨S_, .i32⟩
  | .hbm, ⟨15, _⟩ => ⟨S16x2097152, .i32⟩
  | .hbm, ⟨16, _⟩ => ⟨S16x2097152, .i1⟩
  | .hbm, ⟨17, _⟩ => ⟨S_, .i32⟩
  | .hbm, ⟨18, _⟩ => ⟨S16x2097152, .i32⟩
  | .hbm, ⟨19, _⟩ => ⟨S16x2097152, .i32⟩
  | .hbm, ⟨20, _⟩ => ⟨S16x2097152, .i32⟩
  | .hbm, ⟨21, _⟩ => ⟨S16x2097152, .i32⟩
  | .hbm, ⟨22, _⟩ => ⟨S16x2097152x1, .i32⟩
  | .hbm, ⟨23, _⟩ => ⟨S16x2097152x1, .i32⟩
  | .hbm, ⟨24, _⟩ => ⟨S16x2097152x2, .i32⟩
  | .hbm, ⟨25, _⟩ => ⟨S_, .i32⟩
  | .hbm, ⟨26, _⟩ => ⟨S16x2097152, .i32⟩
  | .hbm, ⟨27, _⟩ => ⟨S16x19, .i32⟩
  | .hbm, ⟨28, _⟩ => ⟨S_, .i32⟩
  | .hbm, ⟨29, _⟩ => ⟨S16x19, .i32⟩
  | .hbm, ⟨30, _⟩ => ⟨S16x19, .i1⟩
  | .hbm, ⟨31, _⟩ => ⟨S16x19, .f32⟩
  | .hbm, ⟨32, _⟩ => ⟨S16x19, .f32⟩
  | .hbm, ⟨33, _⟩ => ⟨S_, .f32⟩
  | .hbm, ⟨34, _⟩ => ⟨S16x19, .f32⟩
  | .hbm, ⟨35, _⟩ => ⟨S16x19, .f32⟩
  | .hbm, ⟨36, _⟩ => ⟨S16x19, .f32⟩
  | .hbm, ⟨37, _⟩ => ⟨S16x19, .f32⟩
  | .hbm, ⟨38, _⟩ => ⟨S16x19, .i1⟩
  | .hbm, ⟨39, _⟩ => ⟨S16x19, .f32⟩
  | .hbm, ⟨40, _⟩ => ⟨S16x19, .f32⟩
  | .hbm, ⟨41, _⟩ => ⟨S16x19, .f32⟩
  | .hbm, ⟨42, _⟩ => ⟨S16x19, .f32⟩
  | .hbm, ⟨43, _⟩ => ⟨S16x19, .f32⟩
  | .hbm, ⟨44, _⟩ => ⟨S16x19, .f32⟩
  | .hbm, ⟨45, _⟩ => ⟨S16x19, .f32⟩
  | .hbm, ⟨46, _⟩ => ⟨S16x19, .f32⟩
  | .hbm, ⟨47, _⟩ => ⟨S16x19, .f32⟩
  | .hbm, ⟨48, _⟩ => ⟨S16x19, .f32⟩
  | .hbm, ⟨49, _⟩ => ⟨S_, .f32⟩
  | .hbm, ⟨50, _⟩ => ⟨S16x19, .f32⟩
  | .hbm, ⟨51, _⟩ => ⟨S16x19, .f32⟩
  | .hbm, ⟨52, _⟩ => ⟨S16x19, .f32⟩
  | .hbm, ⟨53, _⟩ => ⟨S16x19, .f32⟩
  | .hbm, ⟨54, _⟩ => ⟨S_, .f32⟩
  | .hbm, ⟨55, _⟩ => ⟨S16x19, .f32⟩
  | .hbm, ⟨56, _⟩ => ⟨S16x19, .f32⟩
  | .hbm, ⟨57, _⟩ => ⟨S16x19, .f32⟩
  | .hbm, ⟨58, _⟩ => ⟨S16x19, .f32⟩
  | .hbm, ⟨59, _⟩ => ⟨S16x19, .i1⟩
  | .hbm, ⟨60, _⟩ => ⟨S16x19, .f32⟩
  | .hbm, ⟨61, _⟩ => ⟨S16x19, .f32⟩
  | .hbm, ⟨62, _⟩ => ⟨S16x19, .f32⟩
  | .hbm, ⟨63, _⟩ => ⟨S16x19, .f32⟩
  | .hbm, ⟨64, _⟩ => ⟨S16x19, .f32⟩
  | .hbm, ⟨65, _⟩ => ⟨S16x19, .f32⟩
  | .hbm, ⟨66, _⟩ => ⟨S16x19, .f32⟩
  | .hbm, ⟨67, _⟩ => ⟨S16x19, .f32⟩
  | .hbm, ⟨68, _⟩ => ⟨S16x19, .f32⟩
  | .hbm, ⟨69, _⟩ => ⟨S16x19, .f32⟩
  | .hbm, ⟨70, _⟩ => ⟨S16x19, .f32⟩
  | .hbm, ⟨71, _⟩ => ⟨S16x19, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S16x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_c_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_c_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_v0 : Ref sig .tc := ⟨.hbm, 53, rfl⟩
abbrev main_call1_call0_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_v2 : Ref sig .tc := ⟨.hbm, 57, rfl⟩
abbrev main_call1_call0_v3 : Ref sig .tc := ⟨.hbm, 58, rfl⟩
abbrev main_call1_call0_v4 : Ref sig .tc := ⟨.hbm, 59, rfl⟩
abbrev main_call1_call0_v5 : Ref sig .tc := ⟨.hbm, 60, rfl⟩
abbrev main_call1_call0_v6 : Ref sig .tc := ⟨.hbm, 61, rfl⟩
abbrev main_call1_call0_v7 : Ref sig .tc := ⟨.hbm, 62, rfl⟩
abbrev main_call1_call0_v8 : Ref sig .tc := ⟨.hbm, 63, rfl⟩
abbrev main_call1_call0_v9 : Ref sig .tc := ⟨.hbm, 64, rfl⟩
abbrev main_call1_call0_v10 : Ref sig .tc := ⟨.hbm, 65, rfl⟩
abbrev main_call1_call0_v11 : Ref sig .tc := ⟨.hbm, 66, rfl⟩
abbrev main_call1_v1 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_6 : Ref sig .tc := ⟨.hbm, 72, rfl⟩
abbrev main_v32 : Ref sig .tc := ⟨.hbm, 73, rfl⟩
abbrev main_cst_7 : Ref sig .tc := ⟨.hbm, 74, rfl⟩
abbrev main_v33 : Ref sig .tc := ⟨.hbm, 75, rfl⟩

abbrev nD : Nat := 1
abbrev τ : Topo := Topo.v7x

variable {F : FTy → Type} [FloatOps F]

class Facts₀ : Prop where
  shapeCasts_S16x1024x2048_S16x2097152 : S16x1024x2048.ShapeCasts S16x2097152
  bcast_S16_S16x1_0 : S16.BroadcastsInDim S16x1 (![0] : Fin 1 → Fin S16x1.rank)
  bcast_S_S16x19 : S_.BroadcastsInDim S16x19 (![] : Fin 0 → Fin S16x19.rank)
  bcast_S_S16x1 : S_.BroadcastsInDim S16x1 (![] : Fin 0 → Fin S16x1.rank)
  bcast_S_S16x2097152 : S_.BroadcastsInDim S16x2097152 (![] : Fin 0 → Fin S16x2097152.rank)
  bcast_S16x1_S16x2097152_0_1 : S16x1.BroadcastsInDim S16x2097152 (![0, 1] : Fin 2 → Fin S16x2097152.rank)
  bcast_S16x2097152_S16x2097152x1_0_1 : S16x2097152.BroadcastsInDim S16x2097152x1 (![0, 1] : Fin 2 → Fin S16x2097152x1.rank)
  concatenates_S16x2097152x1_S16x2097152x1_S16x2097152x2_d2 : Shape.Concatenates [S16x2097152x1, S16x2097152x1] S16x2097152x2 2
  reducesTo_S16x19_S_d0_1 : S16x19.ReducesTo [0, 1] S_
  h_S_ : 0 < S_.numel
  scatter_S16x19_S16x2097152x2_S16x2097152_n_01_01_2_wf : ScatterDims.WF S16x19 S16x2097152x2 S16x2097152 [] [0, 1] [0, 1] 2

variable [Facts₀]

def scatter_S16x19_S16x2097152x2_S16x2097152_n_01_01_2 : ScatterDims S16x19 S16x2097152x2 S16x2097152 where
  updateWindowDims := []
  insertedWindowDims := [0, 1]
  scatterDimsToOperandDims := [0, 1]
  indexVectorDim := 2
  wf := scatter_S16x19_S16x2097152x2_S16x2097152_n_01_01_2_wf

class Facts : Prop extends Facts₀ where

variable [Facts]
-- ==== Proof.KernelPieces.lean ====
import proofs.«410181_j15960098471942_3_alg».proof.Proof.Gen.KernelIdeal.Frame
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

/-! ## What each control case leaves behind, as payloads

The body has three control cases over the tile number `h` of a sample: `h = 0` clears the accumulator word
before OR-ing the tile's word into it, `h = 1, 2` only OR, and `h = 3` ORs and then writes the loss row from
the finished word.  Each case's final accumulator (and, for the last, the output row) is the payload of its
last covering store, read at the loads the case made. -/

theorem z2 : (![0, 0] : Fin 2 → Nat) = fun _ => 0 := by funext a; fin_cases a <;> rfl
theorem z3 : (![0, 0, 0] : Fin 3 → Nat) = fun _ => 0 := by funext a; fin_cases a <;> rfl

section
variable (c : Dev nD) (i : grid0.Coords) (arg2 : Memref sig .tc .vmem S1x1x19 .f32) (harg2 : arg2.IsWhole)
  (arg3 : Memref sig .tc .vmem S1x256x2048 .i32) (harg3 : arg3.IsWhole) (arg4 : Memref sig .tc .vmem S1x1x19 .f32) (harg4 : arg4.IsWhole)
  (arg5 : Memref sig .tc .vmem S1x1 .i32) (harg5 : arg5.IsWhole)
  (x0 : Vec F S1x1x19 .f32) (x1 : Vec F S1x256x2048 .i32) (xs0 : Vec F S1x1 .i32)

/-- First tile of a sample: the accumulator ends at the tile's word OR-ed into the cleared word. -/
theorem scratch_A (hc0 : cond0_0 i) (hc1 : ¬cond0_1 i) :
    sout0_A_0 c i arg2 harg2 arg3 harg3 arg4 harg4 arg5 harg5 hc0 hc1 x0 x1
      = k0_pay2 (F := F) (k0_pay9 x1) (k0_pay10 x1) (k0_pay1 : IVec S1x1 32) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) z2, View.readCov_unit_zero (S := S1x1) _ z2]
  simp only [View.readAt_eq_ld, harg3.read_unread, View.ld_unit_zero (S := S1x256x2048) z3]

/-- A middle tile: the tile's word OR-ed into what the tile before left. -/
theorem scratch_B (hc0 : ¬cond0_0 i) (hc1 : ¬cond0_1 i) :
    sout0_B_0 c i arg2 harg2 arg3 harg3 arg4 harg4 arg5 harg5 hc0 hc1 x0 x1 xs0
      = k0_pay2 (F := F) (k0_pay9 x1) (k0_pay10 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1x1) z2]
  simp only [View.readAt_eq_ld, harg3.read_unread, harg5.read_unread, View.ld_unit_zero (S := S1x256x2048) z3,
    View.ld_unit_zero (S := S1x1) z2]

/-- Last tile of a sample: the accumulator ends as in a middle tile. -/
theorem scratch_C (hc0 : ¬cond0_0 i) (hc1 : cond0_1 i) :
    sout0_C_0 c i arg2 harg2 arg3 harg3 arg4 harg4 arg5 harg5 hc0 hc1 x0 x1 xs0
      = k0_pay2 (F := F) (k0_pay9 x1) (k0_pay10 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1x1) z2]
  simp only [View.readAt_eq_ld, harg3.read_unread, harg5.read_unread, View.ld_unit_zero (S := S1x256x2048) z3,
    View.ld_unit_zero (S := S1x1) z2]

/-- Last tile of a sample: the output row is the loss row of the finished accumulator word and the logits block. -/
theorem out_C (hc0 : ¬cond0_0 i) (hc1 : cond0_1 i) :
    out0_C_2 c i arg2 harg2 arg3 harg3 arg4 harg4 arg5 harg5 hc0 hc1 x0 x1 xs0
      = k0_pay3 (k0_pay4 (k0_pay2 (F := F) (k0_pay9 x1) (k0_pay10 x1) xs0)) (k0_pay6 x0) (k0_pay7 x0) (Scalar.ofBits .f32 0x00000000#32) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x1x19) z3]
  simp only [View.readCov_unit_zero (S := S1x1) _ z2, View.readAt_eq_ld, harg2.read_unread, harg3.read_unread,
    harg5.read_unread, View.ld_unit_zero (S := S1x256x2048) z3, View.ld_unit_zero (S := S1x1) z2,
    View.ld_unit_zero (S := S1x1x19) z3]

end

end Cert.KernelIdeal.KV
end
-- ==== Proof.KernelAcc.lean ====
import proofs.«410181_j15960098471942_3_alg».proof.Proof.KernelPieces
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## The accumulator word and the output row, point by point -/

/-- The label tile the body reads at point `t`, at its literal type. -/
abbrev tblk (c : Dev nD) (t : Fin cfg0.N) : Vec F S1x256x2048 .i32 := iblk m c 1 t
/-- The logits row the body reads at point `t`, at its literal type. -/
abbrev pblk (c : Dev nD) (t : Fin cfg0.N) : Vec F S1x1x19 .f32 := iblk m c 0 t
/-- The accumulator word after point `t`. -/
abbrev accAt (c : Dev nD) (n : ℕ) (hn : n < cfg0.N) : Vec F S1x1 .i32 := (outsAt0 m c n hn).2

/-- At a sample's first tile the accumulator is the tile's word OR-ed into the cleared word. -/
theorem acc_first (c : Dev nD) (t : Fin cfg0.N) (h : t.val % 4 = 0) :
    accAt m c t.val t.isLt = k0_pay2 (F := F) (k0_pay9 (tblk m c t)) (k0_pay10 (tblk m c t)) (k0_pay1 : IVec S1x1 32) := by
  have h1 : ¬ t.val % 4 = 3 := by omega
  show (outsAt0 m c t.val t.isLt).2 = _
  rw [outsAt0_A m c t h h1]
  dsimp only
  exact scratch_A c (grid0.coords t) (ms0_0 t) (hs0_0 t) (ms0_1 t) (hs0_1 t) (ms0_2 t) (hs0_2 t) scM0_0 (Memref.isWhole_whole _)
    (iblk m c 0 t) (iblk m c 1 t) ((hcond0_0 t).mpr h) (fun hh => h1 ((hcond0_1 t).mp hh))

/-- At a later tile it is the tile's word OR-ed into what the tile before left. -/
theorem acc_next (c : Dev nD) (t : Fin cfg0.N) (h : ¬ t.val % 4 = 0) :
    accAt m c t.val t.isLt = k0_pay2 (F := F) (k0_pay9 (tblk m c t)) (k0_pay10 (tblk m c t))
      (accAt m c (t.val - 1) (Nat.lt_of_le_of_lt (Nat.sub_le _ _) t.isLt)) := by
  show (outsAt0 m c t.val t.isLt).2 = _
  by_cases h1 : t.val % 4 = 3
  · rw [outsAt0_C m c t h h1]
    dsimp only
    exact scratch_C c (grid0.coords t) (ms0_0 t) (hs0_0 t) (ms0_1 t) (hs0_1 t) (ms0_2 t) (hs0_2 t) scM0_0 (Memref.isWhole_whole _)
      (iblk m c 0 t) (iblk m c 1 t) (outsAt0 m c (t.val - 1) (Nat.lt_of_le_of_lt (Nat.sub_le _ _) t.isLt)).2
      (fun hh => h ((hcond0_0 t).mp hh)) ((hcond0_1 t).mpr h1)
  · rw [outsAt0_B m c t h h1]
    dsimp only
    exact scratch_B c (grid0.coords t) (ms0_0 t) (hs0_0 t) (ms0_1 t) (hs0_1 t) (ms0_2 t) (hs0_2 t) scM0_0 (Memref.isWhole_whole _)
      (iblk m c 0 t) (iblk m c 1 t) (outsAt0 m c (t.val - 1) (Nat.lt_of_le_of_lt (Nat.sub_le _ _) t.isLt)).2
      (fun hh => h ((hcond0_0 t).mp hh)) (fun hh => h1 ((hcond0_1 t).mp hh))

/-- At a sample's last tile the output row is the loss row of the finished word and the logits row. -/
theorem row_last (c : Dev nD) (t : Fin cfg0.N) (h : t.val % 4 = 3) :
    (outsAt0 m c t.val t.isLt).1 = k0_pay3 (k0_pay4 (accAt m c t.val t.isLt)) (k0_pay6 (pblk m c t)) (k0_pay7 (pblk m c t))
      (Scalar.ofBits .f32 0x00000000#32) := by
  have h0 : ¬ t.val % 4 = 0 := by omega
  rw [acc_next m c t h0]
  rw [outsAt0_C m c t h0 h]
  dsimp only
  exact out_C c (grid0.coords t) (ms0_0 t) (hs0_0 t) (ms0_1 t) (hs0_1 t) (ms0_2 t) (hs0_2 t) scM0_0 (Memref.isWhole_whole _)
    (iblk m c 0 t) (iblk m c 1 t) (outsAt0 m c (t.val - 1) (Nat.lt_of_le_of_lt (Nat.sub_le _ _) t.isLt)).2
    (fun hh => h0 ((hcond0_0 t).mp hh)) ((hcond0_1 t).mpr h)

end Cert.KernelIdeal.KV
end
-- ==== Proof.KernelArr.lean ====
import proofs.«410181_j15960098471942_3_alg».proof.Proof.KernelAcc
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## The loss rows as one array, and what the host computes from it -/

/-- The printed index maps over the grid: point `t` is tile `t % 4` of sample `t / 4`. -/
theorem idx_out : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx_logits : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx_labels : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)

theorem lastPt_lt (b : Fin 16) : 4 * b.val + 3 < cfg0.N := by
  have := b.isLt; rw [show cfg0.N = 64 from N_0]; omega

/-- The last tile's point of sample `b`. -/
abbrev lastPt (b : Fin 16) : Fin cfg0.N := ⟨4 * b.val + 3, lastPt_lt b⟩

/-- The loss row of sample `b`: what its last tile leaves in the output block. -/
def rowAt (c : Dev nD) (b : Fin 16) : Vec F S1x1x19 .f32 := (outsAt0 m c (lastPt b).val (lastPt b).isLt).1

/-- The 16 loss rows as the kernel's result array. -/
def rowsArr (c : Dev nD) : Buf (Elt F) ((c : Thread nD τ).loc main_v1) :=
  fun i => rowAt m c (i 0) (ix3 0 0 (i 2))

theorem outsAt0_congr (c : Dev nD) {n n' : ℕ} (e : n = n') (h : n < cfg0.N) (h' : n' < cfg0.N) :
    outsAt0 m c n h = outsAt0 m c n' h' := by subst e; rfl

/-- The row array at an index, read at the point that wrote it. -/
theorem rowsArr_apply (c : Dev nD) (i : S16x1x19.Idx) (t : Fin cfg0.N) (ht : t.val = 4 * (i 0).val + 3)
    (y : S1x1x19.Idx) (hy : (y 2).val = (i 2).val) :
    rowsArr m c i = (outsAt0 m c t.val t.isLt).1 y := by
  have ey : y = ix3 (0 : Fin 1) (0 : Fin 1) (i 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => exact Fin.ext hy
  subst ey
  unfold rowsArr rowAt
  exact congrFun (congrArg Prod.fst (outsAt0_congr m c ht.symm (lastPt (i 0)).isLt t.isLt)) _

/-- What a sample's last tile writes back is that sample's block of the row array. -/
theorem flushed_eq (c : Dev nD) (t : Fin cfg0.N) (hf : (cfg0.win 2).flush t = true) :
    (dats m 0 c).flushed 2 t = ((cfg0.win 2).blk t).view.read (Elt F) (rowsArr m c) := by
  have h3 : t.val % 4 = 3 := (flush0_2 t).mp hf
  show (cfg0.win 2).cut (grid0.coords t) ((dats m 0 c).after 2 t) = _
  rw [after0_2]
  funext y
  show (outsAt0 m c t.val t.isLt).1 y = rowsArr m c (((cfg0.win 2).blk t).view.emb y)
  obtain ⟨i0, i1, i2⟩ := idx_out t
  refine (rowsArr_apply m c _ t ?_ y ?_).symm
  · show t.val = 4 * (win0_2.index t (0 : Fin 3) * 1 + 1 * (y 0).val) + 3
    have h : (y 0).val < 1 := (y 0).isLt
    omega
  · show (y 2).val = win0_2.index t (2 : Fin 3) * 19 + 1 * (y 2).val
    omega

/-- An index of the row array is in point `t`'s block iff each coordinate is in the block's range on its axis. -/
theorem mem_blk (t : Fin cfg0.N) (i : S16x1x19.Idx) :
    i ∈ ((cfg0.win 2).blk t).view.set ↔ ∀ a : Fin 3, win0_2.index t a * S1x1x19.size a ≤ (i a).val ∧ (i a).val < win0_2.index t a * S1x1x19.size a + S1x1x19.size a := by
  show i ∈ ((View.whole main_v1).slice (win0_2.rect t)).set ↔ _
  rw [View.set_slice_whole, Rect.mem_set_unit]
  exact Iff.rfl

/-- So the kernel's result array ends holding the 16 loss rows. -/
theorem final_rows (c : Dev nD) : (dats m 0 c).arrAt 2 cfg0.N = rowsArr m c :=
  (dats m 0 c).arrAt_eq_of_cover 2 (rowsArr m c) (flushed_eq m c) fun i => by
    have hi0 : (i 0).val < 16 := (i 0).isLt
    have hi1 : (i 1).val < 1 := (i 1).isLt
    have hi2 : (i 2).val < 19 := (i 2).isLt
    refine ⟨lastPt ⟨(i 0).val, hi0⟩, (flush0_2 _).mpr (by show (4 * (i 0).val + 3) % 4 = 3; omega), ?_⟩
    rw [mem_blk]
    obtain ⟨j0, j1, j2⟩ := idx_out (lastPt ⟨(i 0).val, hi0⟩)
    have j0' : win0_2.index (lastPt ⟨(i 0).val, hi0⟩) (0 : Fin 3) = (i 0).val := by
      rw [j0]; show (4 * (i 0).val + 3) / 4 = (i 0).val; omega
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 1 ≤ (i 1).val ∧ (i 1).val < win0_2.index _ (1 : Fin 3) * 1 + 1; omega
    | ⟨2, _⟩ => show win0_2.index _ (2 : Fin 3) * 19 ≤ (i 2).val ∧ (i 2).val < win0_2.index _ (2 : Fin 3) * 19 + 19; omega

/-- The mean the host takes of the rows: their sum from zero over 16 · 19 entries, divided by 304. -/
def kerOut (c : Dev nD) : Buf (Elt F) ((c : Thread nD τ).loc main_v4) :=
  Host.divf (Host.reduceAdd (shapeCast S16x19 (rowsArr m c) shapeCasts_S16x1x19_S16x19) (constant S_ .f32 0x00000000#32)
    reducesTo_S16x19_S_d0_1 h_S_) (constant S_ .f32 0x43980000#32)

theorem tail_eq (c : Dev nD) :
    Pipeline.afterTail₀ cfgs (dats m) 0 (V0 m) [hostOps1] c main_v4 = kerOut m c := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v1)
      = rowsArr m c :=
    (Pipeline.withArrays_arr spec0 launch0.win.arr_inj c _ _ 2).trans (final_rows m c)
  rw [e]
  rfl

/-- The kernel's run, read: its result is the mean of the 16 loss rows, its arguments unchanged. -/
theorem run : θ_run defs (onTc (τ := τ) (main (F := F))) ⟨m, fun _ => 0, ρ⟩ fun r => ∀ c : Dev nD,
      r.2.mem ((c.tc : Thread nD τ).loc main_v4) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KV
end
-- ==== Proof.KernelBlocks.lean ====
import proofs.«410181_j15960098471942_3_alg».proof.Proof.KernelArr
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## The blocks the body reads, as entries of the argument arrays -/

theorem pt_lt (t : Fin cfg0.N) : t.val < 64 := lt_of_lt_of_eq t.isLt N_0

/-- The logits as the region finds them: the argument with a unit axis inserted in the middle. -/
theorem V_logits (c : Dev nD) :
    (V m c main_v0 : S16x1x19.Idx → Elt F .f32)
      = broadcastInDim S16x1x19 ![0, 2] bcast_S16x19_S16x1x19_0_2 (m ((c : Thread nD τ).loc main_arg0)) := by
  show StableHlo.after hostOps0 (fun b => m (c, b)) (Proc.devRef .tc main_v0) = _
  after_results

/-- The label tile at point `t` holds rows `256 (t % 4) …` of sample `t / 4`. -/
theorem tblk_apply (c : Dev nD) (t : Fin cfg0.N) (r : Fin 256) (w : Fin 2048) :
    tblk m c t (ix3 0 r w)
      = (m ((c : Thread nD τ).loc main_arg1) : S16x1024x2048.Idx → BitVec 32)
          (ix3 ⟨t.val / 4, by have := pt_lt t; omega⟩
            ⟨256 * (t.val % 4) + r.val, by have := r.isLt; omega⟩ w) := by
  obtain ⟨i0, i1, i2⟩ := idx_labels t
  show V m c main_arg1 (((cfg0.win 1).blk t).view.emb (ix3 0 r w)) = _
  rw [V_main_arg1]
  refine congrArg _ (funext fun a => Fin.ext ?_)
  match a with
  | ⟨0, _⟩ => show win0_1.index t (0 : Fin 3) * 1 + 1 * 0 = t.val / 4; omega
  | ⟨1, _⟩ => show win0_1.index t (1 : Fin 3) * 256 + 1 * r.val = 256 * (t.val % 4) + r.val; omega
  | ⟨2, _⟩ => show win0_1.index t (2 : Fin 3) * 2048 + 1 * w.val = w.val; omega

/-- The logits row at point `t` is row `t / 4` of the logits. -/
theorem pblk_apply (c : Dev nD) (t : Fin cfg0.N) (k : Fin 19) :
    pblk m c t (ix3 0 0 k)
      = (m ((c : Thread nD τ).loc main_arg0) : S16x19.Idx → Elt F .f32)
          (ix2 ⟨t.val / 4, by have := pt_lt t; omega⟩ k) := by
  obtain ⟨i0, i1, i2⟩ := idx_logits t
  show V m c main_v0 (((cfg0.win 0).blk t).view.emb (ix3 0 0 k)) = _
  rw [V_logits]
  refine broadcastInDim_apply _ _ _ _ _ ?_
  intro a
  match a with
  | ⟨0, _⟩ => show t.val / 4 = if (16 : ℕ) = 1 then 0 else win0_0.index t (0 : Fin 3) * 1 + 1 * 0; simp; omega
  | ⟨1, _⟩ => show k.val = if (19 : ℕ) = 1 then 0 else win0_0.index t (2 : Fin 3) * 19 + 1 * k.val; simp; omega

end Cert.KernelIdeal.KV
end
-- ==== Proof.OrTree.lean ====
import proofs.«410181_j15960098471942_3_alg».proof.Proof.Gen.KernelIdeal.Skeleton
import Idealize.ShloMosaic.Lib.ValueIdx
import Idealize.ShloMosaic.Lib.ValueLayout

/-!
# The OR-tree of the kernel

The kernel turns every label of its block into the one-bit word `1 <<< label` and folds the
256 × 2048 words into ONE word by nineteen halvings, each the bitwise OR of the two halves of the
array before it: eight along the rows, eleven along the columns, and a last OR with the accumulator
word. Bit `k` of an OR of words is set exactly when it is set in one of them, so bit `k` of the
result is set exactly when it is set in the accumulator or in the word of some label.
-/

namespace Cert.KernelIdeal.OrTree
open Idealize.ShloMosaic Idealize.ShloMosaic.ValueIdx Cert.KernelIdeal

/-- Some word of the array has bit `k` set. -/
def SomeBit {s : Shape} (k : Nat) (y : IVec s 32) : Prop := ∃ i : s.Idx, (y i).getLsbD k = true

/-- Over a matrix, "some word" is "the word at some row and column". -/
theorem someBit_ix2 {n m : Nat} (k : Nat) (y : IVec ⟨2, ![n, m]⟩ 32) :
    SomeBit k y ↔ ∃ (r : Fin n) (c : Fin m), (y (ix2 r c)).getLsbD k = true := by
  constructor
  · rintro ⟨i, hi⟩
    obtain ⟨r, c, rfl⟩ : ∃ (r : Fin n) (c : Fin m), i = ix2 r c := ⟨i 0, i 1, eq_ix2 i⟩
    exact ⟨r, c, hi⟩
  · rintro ⟨r, c, h⟩
    exact ⟨ix2 r c, h⟩

/-- Bit `k` of the OR of two word arrays at an index. -/
theorem ori_getLsbD {s : Shape} (a b : IVec s 32) (i : s.Idx) (k : Nat) :
    ((ori a b i).getLsbD k = true) ↔ ((a i).getLsbD k = true ∨ (b i).getLsbD k = true) := by
  show ((a i ||| b i).getLsbD k = true) ↔ _
  rw [BitVec.getLsbD_or, Bool.or_eq_true]

/-- ONE HALVING ALONG THE ROWS: the OR of the upper and the lower half of a matrix of `n + n` rows has
    bit `k` set somewhere exactly when the matrix has. -/
theorem halve_rows {N m : Nat} (n : Nat) (hN : N = n + n) (k : Nat) (y : IVec ⟨2, ![N, m]⟩ 32)
    (h1 : (⟨2, ![N, m]⟩ : Shape).Slices ![0, 0] ⟨2, ![n, m]⟩)
    (h2 : (⟨2, ![N, m]⟩ : Shape).Slices ![n, 0] ⟨2, ![n, m]⟩) :
    SomeBit k (ori (extractStridedSlice ⟨2, ![n, m]⟩ ![0, 0] y h1)
      (extractStridedSlice ⟨2, ![n, m]⟩ ![n, 0] y h2)) ↔ SomeBit k y := by
  rw [someBit_ix2, someBit_ix2]
  constructor
  · rintro ⟨r, c, h⟩
    rw [ori_getLsbD, slice2_axis0_eq, slice2_axis0_eq] at h
    rcases h with h | h
    · exact ⟨_, _, h⟩
    · exact ⟨_, _, h⟩
  · rintro ⟨r, c, h⟩
    by_cases hr : r.val < n
    · refine ⟨⟨r.val, hr⟩, c, ?_⟩
      rw [ori_getLsbD, slice2_axis0_apply 0 y h1 ⟨r.val, hr⟩ c r (Nat.zero_add _).symm]
      exact Or.inl h
    · have hr' : r.val - n < n := by have := r.isLt; omega
      refine ⟨⟨r.val - n, hr'⟩, c, ?_⟩
      rw [ori_getLsbD, slice2_axis0_apply n y h2 ⟨r.val - n, hr'⟩ c r (by show r.val = n + (r.val - n); omega)]
      exact Or.inr h

/-- ONE HALVING ALONG THE COLUMNS: the OR of the left and the right half of a matrix of `m + m` columns
    has bit `k` set somewhere exactly when the matrix has. -/
theorem halve_cols {n M : Nat} (m : Nat) (hM : M = m + m) (k : Nat) (y : IVec ⟨2, ![n, M]⟩ 32)
    (h1 : (⟨2, ![n, M]⟩ : Shape).Slices ![0, 0] ⟨2, ![n, m]⟩)
    (h2 : (⟨2, ![n, M]⟩ : Shape).Slices ![0, m] ⟨2, ![n, m]⟩) :
    SomeBit k (ori (extractStridedSlice ⟨2, ![n, m]⟩ ![0, 0] y h1)
      (extractStridedSlice ⟨2, ![n, m]⟩ ![0, m] y h2)) ↔ SomeBit k y := by
  rw [someBit_ix2, someBit_ix2]
  constructor
  · rintro ⟨r, c, h⟩
    rw [ori_getLsbD, slice2_axis1_eq, slice2_axis1_eq] at h
    rcases h with h | h
    · exact ⟨_, _, h⟩
    · exact ⟨_, _, h⟩
  · rintro ⟨r, c, h⟩
    by_cases hc : c.val < m
    · refine ⟨r, ⟨c.val, hc⟩, ?_⟩
      rw [ori_getLsbD, slice2_axis1_apply 0 y h1 r ⟨c.val, hc⟩ c (Nat.zero_add _).symm]
      exact Or.inl h
    · have hc' : c.val - m < m := by have := c.isLt; omega
      refine ⟨r, ⟨c.val - m, hc'⟩, ?_⟩
      rw [ori_getLsbD, slice2_axis1_apply m y h2 r ⟨c.val - m, hc'⟩ c (by show c.val = m + (c.val - m); omega)]
      exact Or.inr h

/-- THE TOP of the tree: the stored word is the accumulator's word OR the tree's one word (a 1 × 1 array
    has the single index (0, 0), and its reshape to its own shape is the identity). -/
theorem top_getLsbD (acc t : IVec S1x1 32) (h : S1x1.ShapeCasts S1x1) (k : Nat) :
    (shapeCast S1x1 (ori acc t) h (ix2 0 0)).getLsbD k = true ↔
      ((acc (ix2 0 0)).getLsbD k = true ∨ SomeBit k t) := by
  rw [shapeCast_self, ori_getLsbD]
  refine or_congr Iff.rfl ?_
  constructor
  · intro ht
    exact ⟨_, ht⟩
  · rintro ⟨i, hi⟩
    obtain ⟨a, b, rfl⟩ : ∃ (a : Fin 1) (b : Fin 1), i = ix2 a b := ⟨i 0, i 1, eq_ix2 i⟩
    obtain rfl : a = 0 := Subsingleton.elim _ _
    obtain rfl : b = 0 := Subsingleton.elim _ _
    exact hi

variable {F : FTy → Type} [FloatOps F] [Facts]

/-- The words the tree folds: `1 <<< label` at every label of the block, as a 256 × 2048 matrix. -/
def bits (x : Vec F S1x256x2048 .i32) : IVec S256x2048 32 :=
  shli (broadcast S256x2048 1#32) (shapeCast S256x2048 x Gen.shapeCasts_S1x256x2048_S256x2048)

/-- The first sixteen halvings (eight along the rows, eight along the columns), down to 1 × 8 words. -/
theorem pay8_someBit (x : Vec F S1x256x2048 .i32) (k : Nat) :
    SomeBit k (Gen.k0_pay8 x) ↔ SomeBit k (bits x) := by
  refine (halve_cols 8 rfl k _ _ _).trans ?_
  refine (halve_cols 16 rfl k _ _ _).trans ?_
  refine (halve_cols 32 rfl k _ _ _).trans ?_
  refine (halve_cols 64 rfl k _ _ _).trans ?_
  refine (halve_cols 128 rfl k _ _ _).trans ?_
  refine (halve_cols 256 rfl k _ _ _).trans ?_
  refine (halve_cols 512 rfl k _ _ _).trans ?_
  refine (halve_cols 1024 rfl k _ _ _).trans ?_
  refine (halve_rows 1 rfl k _ _ _).trans ?_
  refine (halve_rows 2 rfl k _ _ _).trans ?_
  refine (halve_rows 4 rfl k _ _ _).trans ?_
  refine (halve_rows 8 rfl k _ _ _).trans ?_
  refine (halve_rows 16 rfl k _ _ _).trans ?_
  refine (halve_rows 32 rfl k _ _ _).trans ?_
  refine (halve_rows 64 rfl k _ _ _).trans ?_
  refine (halve_rows 128 rfl k _ _ _).trans ?_
  exact Iff.rfl

/-- The matrix of words at a row and a column: `1 <<< label` of the label there. -/
theorem bits_apply (x : Vec F S1x256x2048 .i32) (r : Fin 256) (c : Fin 2048) :
    (bits x (ix2 r c) : BitVec 32) = IntOp.shli .vector 1#32 (x (ix3 0 r c)) := by
  show IntOp.shli .vector 1#32 (shapeCast S256x2048 x Gen.shapeCasts_S1x256x2048_S256x2048 (ix2 r c)) = _
  rw [shapeCast_1ab_ab_apply]

/-- Some word of the matrix has bit `k` set exactly when `1 <<< label` has for some label of the block. -/
theorem bits_someBit (x : Vec F S1x256x2048 .i32) (k : Nat) :
    SomeBit k (bits x) ↔
      ∃ (r : Fin 256) (w : Fin 2048), (IntOp.shli .vector 1#32 (x (ix3 0 r w))).getLsbD k = true := by
  rw [someBit_ix2]
  constructor
  · rintro ⟨r, c, h⟩
    exact ⟨r, c, by rw [← bits_apply]; exact h⟩
  · rintro ⟨r, c, h⟩
    exact ⟨r, c, by rw [bits_apply]; exact h⟩

/-- The two 1 × 4 halves the last part of the tree starts from are the halves of the 1 × 8 array. -/
theorem pay9_eq (x : Vec F S1x256x2048 .i32) :
    Gen.k0_pay9 x = extractStridedSlice S1x4 ![0, 0] (Gen.k0_pay8 x) Gen.slices_S1x8_o0_0_S1x4 := rfl

theorem pay10_eq (x : Vec F S1x256x2048 .i32) :
    Gen.k0_pay10 x = extractStridedSlice S1x4 ![0, 4] (Gen.k0_pay8 x) Gen.slices_S1x8_o0_4_S1x4 := rfl

/-- THE CLAIM: bit `k` of the word the kernel stores is set exactly when it is set in the accumulator's
    word or in `1 <<< label` for some label of the block. -/
theorem pay2_getLsbD (x : Vec F S1x256x2048 .i32) (acc : Vec F S1x1 .i32) (k : Nat) :
    ((Gen.k0_pay2 (Gen.k0_pay9 x) (Gen.k0_pay10 x) acc (ix2 0 0) : BitVec 32)).getLsbD k = true ↔
      ((acc (ix2 0 0) : BitVec 32).getLsbD k = true
        ∨ ∃ (r : Fin 256) (w : Fin 2048), (IntOp.shli .vector 1#32 (x (ix3 0 r w))).getLsbD k = true) := by
  refine (top_getLsbD _ _ _ k).trans (or_congr Iff.rfl ?_)
  refine (halve_cols 1 rfl k _ _ _).trans ?_
  refine (halve_cols 2 rfl k _ _ _).trans ?_
  rw [pay9_eq, pay10_eq]
  refine (halve_cols 4 rfl k (Gen.k0_pay8 x) Gen.slices_S1x8_o0_0_S1x4 Gen.slices_S1x8_o0_4_S1x4).trans ?_
  exact (pay8_someBit x k).trans (bits_someBit x k)

end Cert.KernelIdeal.OrTree
-- ==== Proof.KernelBits.lean ====
import proofs.«410181_j15960098471942_3_alg».proof.Proof.KernelBlocks
import proofs.«410181_j15960098471942_3_alg».proof.Proof.OrTree
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## Which bits the finished accumulator word carries -/

theorem pt_lt' (b : Fin 16) (h : Fin 4) : 4 * b.val + h.val < cfg0.N := by
  have := b.isLt; have := h.isLt; rw [show cfg0.N = 64 from N_0]; omega

/-- Tile `h` of sample `b` as a grid point. -/
abbrev pt (b : Fin 16) (h : Fin 4) : Fin cfg0.N := ⟨4 * b.val + h.val, pt_lt' b h⟩

/-- No bit of the cleared word is set. -/
theorem cleared_bit (k : ℕ) : ((k0_pay1 : IVec S1x1 32) (ix2 0 0)).getLsbD k = false := by
  unfold k0_pay1
  rw [shapeCast_self]
  show (0#32 : BitVec 32).getLsbD k = false
  simp

theorem accAt_congr (c : Dev nD) {n n' : ℕ} (e : n = n') (h : n < cfg0.N) (h' : n' < cfg0.N) :
    accAt m c n h = accAt m c n' h' := by subst e; rfl

/-- After tile `h` of sample `b` the accumulator word has bit `k` exactly when the word `1 <<< label` of some label
    in tiles `0 … h` of the sample has: each tile ORs its labels' words into the word before it, the first into
    the cleared word. -/
theorem acc_bit (c : Dev nD) (b : Fin 16) (k : ℕ) : ∀ (h : ℕ) (hh : h < 4),
    ((accAt m c (pt b ⟨h, hh⟩).val (pt b ⟨h, hh⟩).isLt (ix2 0 0) : BitVec 32).getLsbD k = true ↔
      ∃ h' : Fin 4, h'.val ≤ h ∧ ∃ (r : Fin 256) (w : Fin 2048),
        (IntOp.shli .vector 1#32 (tblk m c (pt b h') (ix3 0 r w))).getLsbD k = true)
  | 0, hh => by
    rw [acc_first m c (pt b ⟨0, hh⟩) (by show (4 * b.val + 0) % 4 = 0; omega), Cert.KernelIdeal.OrTree.pay2_getLsbD]
    rw [cleared_bit]
    constructor
    · rintro (hf | ⟨r, w, hrw⟩)
      · exact absurd hf (by simp)
      · exact ⟨⟨0, hh⟩, le_refl _, r, w, hrw⟩
    · rintro ⟨h', hle, r, w, hrw⟩
      obtain rfl : h' = ⟨0, hh⟩ := Fin.ext (by show h'.val = 0; have : h'.val ≤ 0 := hle; omega)
      exact Or.inr ⟨r, w, hrw⟩
  | h + 1, hh => by
    have ih := acc_bit c b k h (by omega)
    rw [acc_next m c (pt b ⟨h + 1, hh⟩) (by show ¬ (4 * b.val + (h + 1)) % 4 = 0; omega), Cert.KernelIdeal.OrTree.pay2_getLsbD]
    rw [accAt_congr m c (show (pt b ⟨h + 1, hh⟩).val - 1 = (pt b ⟨h, by omega⟩).val by show 4 * b.val + (h + 1) - 1 = 4 * b.val + h; omega) _ (pt b ⟨h, by omega⟩).isLt, ih]
    constructor
    · rintro (⟨h', hle, r, w, hrw⟩ | ⟨r, w, hrw⟩)
      · exact ⟨h', Nat.le_succ_of_le hle, r, w, hrw⟩
      · exact ⟨⟨h + 1, hh⟩, le_refl _, r, w, hrw⟩
    · rintro ⟨h', hle, r, w, hrw⟩
      by_cases e : h'.val = h + 1
      · obtain rfl : h' = ⟨h + 1, hh⟩ := Fin.ext (by show h'.val = h + 1; exact e)
        exact Or.inr ⟨r, w, hrw⟩
      · exact Or.inl ⟨h', by omega, r, w, hrw⟩

end Cert.KernelIdeal.KV
end
-- ==== Proof.BitsWord.lean ====
import proofs.«410181_j15960098471942_3_alg».proof.Proof.Gen.KernelIdeal.Skeleton
import Idealize.ShloMosaic.PureOps.Ideal
import Idealize.ShloMosaic.Lib.ValueIdx
import Idealize.ShloMosaic.Lib.Pipeline.Value
import Idealize.ShloMosaic.Lib.ValueLayout

/-!
# Single words: the one-bit word of a label, and the decode of the finished word

Two facts about 32-bit words, then the kernel's decode read at one class: `1 <<< v` has exactly bit
`v` set; `(x >>ₛ c) &&& 1` is the word `1` when bit `c` of `x` is set and the word `0` when it is not;
and so the decoded entry of class `c`, the integer `(x >>ₛ c) &&& 1` converted to a float, is `1` or
`0` as bit `c` of the finished word is set or not.
-/

namespace Cert.KernelIdeal.BitsWord
open Idealize.ShloMosaic Idealize.ShloMosaic.ValueIdx Cert.KernelIdeal

variable [Facts]

/-- Bit `k` of `1 <<< v`, for a shift `v` below the width, is set exactly when `k` is `v`. -/
theorem shl_one_getLsbD (v : BitVec 32) (hv : v.toNat < 32) (k : Nat) :
    (IntOp.shli .vector 1#32 v).getLsbD k = true ↔ k = v.toNat := by
  unfold IntOp.shli
  rw [if_pos hv, BitVec.getLsbD_shiftLeft', BitVec.getLsbD_one]
  simp only [Nat.ofNat_pos, decide_true, Bool.true_and, Bool.and_eq_true, decide_eq_true_eq,
    Bool.not_eq_eq_eq_not, Bool.not_true, decide_eq_false_iff_not, not_lt]
  omega

/-- An arithmetic shift right by `c` below the width, masked to its lowest bit, is the word `1` when bit `c` is
    set and the word `0` when it is not: bit `0` of the shifted word is bit `c` of the word (the sign fill starts
    above it), and the mask clears every other bit. -/
theorem sshiftRight_and_one (x : BitVec 32) (c : Nat) (hc : c < 32) :
    x.sshiftRight c &&& 1#32 = if x.getLsbD c = true then 1#32 else 0#32 := by
  apply BitVec.eq_of_getLsbD_eq
  intro i hi
  rw [BitVec.getLsbD_and, BitVec.getLsbD_sshiftRight, BitVec.getLsbD_one]
  by_cases h0 : i = 0
  · subst h0
    rw [Nat.add_zero, if_pos hc]
    cases x.getLsbD c <;> rfl
  · by_cases hb : x.getLsbD c = true
    · simp only [Nat.ofNat_pos, decide_true, h0, decide_false, Bool.and_false, hb, ↓reduceIte, BitVec.getLsbD_one]
    · simp only [Nat.ofNat_pos, decide_true, h0, decide_false, Bool.and_false, hb, Bool.false_eq_true, ↓reduceIte,
        BitVec.getLsbD_zero]

/-- THE DECODE AT ONE CLASS: the entry of class `c` is `1` when bit `c` of the finished word is set and `0` when it
    is not. -/
theorem pay4_apply (acc : Vec Ideal S1x1 .i32) (c : Fin 19) :
    Gen.k0_pay4 (F := Ideal) acc (ix2 0 c)
      = if (acc (ix2 0 0) : BitVec 32).getLsbD c.val = true then (1 : EReal) else 0 := by
  have hi : iota .tc S1x19 32 [1] Gen.iota_S1x19_d1_w32 (ix2 0 c) = BitVec.ofNat 32 c.val :=
    iota_single_apply _ _ _ _ _ _
  have hb : broadcastTo S1x19 acc Gen.broadcasts_S1x1_S1x19 (ix2 0 c) = acc (ix2 0 0) :=
    broadcastTo_apply _ _ _ _ (fun a => match a with
      | ⟨0, _⟩ => (if_pos rfl).symm
      | ⟨1, _⟩ => (if_pos rfl).symm)
  show ((((IntOp.andi (IntOp.shrsi .vector (broadcastTo S1x19 acc Gen.broadcasts_S1x1_S1x19 (ix2 0 c))
    (iota .tc S1x19 32 [1] Gen.iota_S1x19_d1_w32 (ix2 0 c))) 1#32).toInt : ℝ) : EReal)) = _
  rw [hi, hb]
  have hc : c.val < 32 := by have := c.isLt; omega
  have hn : (BitVec.ofNat 32 c.val).toNat = c.val := by
    rw [BitVec.toNat_ofNat]; exact Nat.mod_eq_of_lt (by omega)
  have hw : IntOp.andi (IntOp.shrsi .vector (acc (ix2 0 0) : BitVec 32) (BitVec.ofNat 32 c.val)) 1#32
      = if (acc (ix2 0 0) : BitVec 32).getLsbD c.val = true then 1#32 else 0#32 := by
    unfold IntOp.andi IntOp.shrsi
    rw [if_pos (by rw [hn]; exact hc), BitVec.sshiftRight_eq', hn]
    exact sshiftRight_and_one _ _ hc
  rw [hw]
  split
  · rw [BitVec.toInt_one (by decide), Int.cast_one, EReal.coe_one]
  · rw [BitVec.toInt_zero, Int.cast_zero, EReal.coe_zero]

end Cert.KernelIdeal.BitsWord
-- ==== Proof.Spec.lean ====
/-
  What both programs compute, in words: for every sample `b` and class `c` the indicator of "some pixel of
  sample `b` carries label `c`", then the binary cross-entropy of the logits against that indicator through the
  stable log-sigmoid, averaged over the 16 × 19 entries.  This module only fixes the vocabulary on the integer
  side: the label range the statement assumes and the presence predicate.
-/
import Idealize.ShloMosaic.PureOps.Ideal
import Idealize.ShloMosaic.Lib.ValueIdx

noncomputable section

namespace Cert.Spec

open Idealize.ShloMosaic Idealize.ShloMosaic.ValueIdx

/-- The label array: 16 samples of 1024 × 2048 pixels. -/
abbrev SLab : Shape := ⟨3, ![16, 1024, 2048]⟩

/-- Every label is a class number: `0 ≤ t < 19`, read as a signed word. -/
def InRange (t : IVec SLab 32) : Prop := ∀ i : SLab.Idx, 0 ≤ (t i).toInt ∧ (t i).toInt < 19

/-- Class `c` occurs among the labels of sample `b`. -/
def Present (t : IVec SLab 32) (b : Fin 16) (c : Fin 19) : Prop :=
  ∃ (r : Fin 1024) (w : Fin 2048), (t (ix3 b r w)).toNat = c.val

/-- In range, a label's unsigned reading is below 19. -/
theorem InRange.toNat_lt {t : IVec SLab 32} (h : InRange t) (i : SLab.Idx) : (t i).toNat < 19 := by
  have h0 := (h i).1
  have h1 := (h i).2
  rw [BitVec.toInt_eq_toNat_cond] at h0 h1
  split at h0 <;> omega

end Cert.Spec

end
-- ==== Proof.KernelPresent.lean ====
import proofs.«410181_j15960098471942_3_alg».proof.Proof.KernelBits
import proofs.«410181_j15960098471942_3_alg».proof.Proof.BitsWord
import proofs.«410181_j15960098471942_3_alg».proof.Proof.Spec
import Idealize.ShloMosaic.Lib.Pipeline.Value
import Idealize.ShloMosaic.Lib.ValueIdx

set_option maxRecDepth 16384

noncomputable section

namespace Cert.KernelIdeal.KV

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-! ## The finished word marks exactly the classes that occur -/

/-- Tile `h` of sample `b` holds rows `256 h …` of the sample's labels. -/
theorem tblk_pt (c : Dev nD) (b : Fin 16) (h : Fin 4) (r : Fin 256) (w : Fin 2048) :
    tblk m c (pt b h) (ix3 0 r w)
      = (m ((c : Thread nD τ).loc main_arg1) : S16x1024x2048.Idx → BitVec 32)
          (ix3 b ⟨256 * h.val + r.val, by have := h.isLt; have := r.isLt; omega⟩ w) := by
  rw [tblk_apply]
  refine congrArg _ (funext fun a => Fin.ext ?_)
  have hb := b.isLt
  have hh := h.isLt
  match a with
  | ⟨0, _⟩ => show (4 * b.val + h.val) / 4 = b.val; omega
  | ⟨1, _⟩ => show 256 * ((4 * b.val + h.val) % 4) + r.val = 256 * h.val + r.val; omega
  | ⟨2, _⟩ => rfl

/-- With every label a class number, bit `k` of a sample's finished word is set exactly when class `k` occurs in
    the sample: the word is the OR of `1 <<< label` over the sample's four tiles, and `1 <<< v` has bit `k` iff `k = v`. -/
theorem word_bit_present (c : Dev nD) (b : Fin 16) (k : Fin 19)
    (hr : Cert.Spec.InRange (m ((c : Thread nD τ).loc main_arg1) : IVec S16x1024x2048 32)) :
    ((accAt m c (lastPt b).val (lastPt b).isLt (ix2 0 0) : BitVec 32).getLsbD k.val = true ↔
      Cert.Spec.Present (m ((c : Thread nD τ).loc main_arg1) : IVec S16x1024x2048 32) b k) := by
  have e := acc_bit m c b k.val 3 (by omega)
  refine Iff.trans ?_ (Iff.trans e ?_)
  · exact Iff.rfl
  constructor
  · rintro ⟨h', -, r, w, hrw⟩
    rw [tblk_pt] at hrw
    have hv := Cert.Spec.InRange.toNat_lt hr (ix3 b ⟨256 * h'.val + r.val, by have := h'.isLt; have := r.isLt; omega⟩ w)
    exact ⟨_, w, ((Cert.KernelIdeal.BitsWord.shl_one_getLsbD _ (by omega) k.val).mp hrw).symm⟩
  · rintro ⟨r0, w, hlab⟩
    have h0 := r0.isLt
    refine ⟨⟨r0.val / 256, by omega⟩, by show r0.val / 256 ≤ 3; omega, ⟨r0.val % 256, Nat.mod_lt _ (by decide)⟩, w, ?_⟩
    rw [tblk_pt]
    have ei : (⟨256 * (r0.val / 256) + r0.val % 256, by omega⟩ : Fin 1024) = r0 := Fin.ext (by show 256 * (r0.val / 256) + r0.val % 256 = r0.val; omega)
    rw [ei]
    have hv := Cert.Spec.InRange.toNat_lt hr (ix3 b r0 w)
    exact (Cert.KernelIdeal.BitsWord.shl_one_getLsbD _ (by omega) k.val).mpr hlab.symm

end Cert.KernelIdeal.KV
end
-- ==== Proof.RefTerms.lean ====
/-
  The reference's result as one pure term of its two arguments, cut at the places the argument needs:
  the scatter's index pairs, the per-class counts, the presence indicator as a float, the stable
  log-sigmoid, the element-wise loss, and the mean.
-/
import proofs.«410181_j15960098471942_3_alg».proof.ReferenceIdeal

noncomputable section

namespace Cert.ReferenceIdeal.RefTerms

open Idealize.ShloMosaic Cert.ReferenceIdeal

variable {F : FTy → Type} [FloatOps F] [Facts]
open Facts₀ Facts

/-- The labels of one sample laid out in one row of 1024 · 2048 entries. -/
def flatR (t : IVec S16x1024x2048 32) : IVec S16x2097152 32 :=
  shapeCast S16x2097152 t shapeCasts_S16x1024x2048_S16x2097152

/-- The sample number of each row, a negative one moved up by 16 (none is negative). -/
def rowsR : IVec S16x1 32 :=
  let v2 : IVec S16x1 32 := broadcastInDim S16x1 ![0] bcast_S16_S16x1_0 (iotaInDim S16 32 0)
  let v4 : IVec S16x1 32 := broadcastInDim S16x1 ![] bcast_S_S16x1 (constantI S_ 32 0#32)
  let v6 : IVec S16x1 32 := broadcastInDim S16x1 ![] bcast_S_S16x1 (constantI S_ 32 16#32)
  select (cmpi .slt v2 v4) (addi v2 v6) v2

/-- The class index each pixel scatters to: its label, a negative one moved up by 19. -/
def colsR (t : IVec S16x1024x2048 32) : IVec S16x2097152 32 :=
  let v9 : IVec S16x2097152 32 := broadcastInDim S16x2097152 ![] bcast_S_S16x2097152 (constantI S_ 32 0#32)
  let v11 : IVec S16x2097152 32 := broadcastInDim S16x2097152 ![] bcast_S_S16x2097152 (constantI S_ 32 19#32)
  select (cmpi .slt (flatR t) v9) (addi (flatR t) v11) (flatR t)

/-- The scatter's index pairs (sample, class), one per pixel. -/
def idxR (t : IVec S16x1024x2048 32) : IVec S16x2097152x2 32 :=
  let v14 : IVec S16x2097152 32 := broadcastInDim S16x2097152 ![0, 1] bcast_S16x1_S16x2097152_0_1 rowsR
  let v15 : IVec S16x2097152x1 32 := broadcastInDim S16x2097152x1 ![0, 1] bcast_S16x2097152_S16x2097152x1_0_1 v14
  let v16 : IVec S16x2097152x1 32 := broadcastInDim S16x2097152x1 ![0, 1] bcast_S16x2097152_S16x2097152x1_0_1 (colsR t)
  concatenate S16x2097152x2 2 [⟨S16x2097152x1, v15⟩, ⟨S16x2097152x1, v16⟩] concatenates_S16x2097152x1_S16x2097152x1_S16x2097152x2_d2

/-- How many pixels of each sample carry each class: ones scatter-added into zeros. -/
def countsR (t : IVec S16x1024x2048 32) : IVec S16x19 32 :=
  Host.scatter scatter_S16x19_S16x2097152x2_S16x2097152_n_01_01_2 IntOp.addi
    (broadcastInDim S16x19 ![] bcast_S_S16x19 (constantI S_ 32 0#32)) (idxR t)
    (broadcastInDim S16x2097152 ![] bcast_S_S16x2097152 (constantI S_ 32 1#32))

/-- The presence indicator: 1.0 where the count is positive, else 0.0. -/
def seR (t : IVec S16x1024x2048 32) : FVec F S16x19 .f32 :=
  uitofp .f32 (cmpi .sgt (countsR t) (broadcastInDim S16x19 ![] bcast_S_S16x19 (constantI S_ 32 0#32)))

/-- The stable softplus `max(x, 0) + log1p(exp(-|x|))`, behind a not-a-number guard. -/
def softplusR (x : FVec F S16x19 .f32) : FVec F S16x19 .f32 :=
  let z : FVec F S16x19 .f32 := broadcastInDim S16x19 ![] bcast_S_S16x19 (constant S_ .f32 0x00000000#32)
  select (cmpf .une (subf x z) (subf x z)) (addf x z)
    (addf (maximumf x z) (Host.log1p (Host.exp (Host.negf (Host.absf (subf x z))))))

/-- `log σ(x) = -softplus(-x)`. -/
def logSigR (x : FVec F S16x19 .f32) : FVec F S16x19 .f32 := Host.negf (softplusR (Host.negf x))

/-- The element-wise loss `-(s · log σ(p) + (1 - s) · log σ(-p))`. -/
def lossR (se p : FVec F S16x19 .f32) : FVec F S16x19 .f32 :=
  let one : FVec F S16x19 .f32 := broadcastInDim S16x19 ![] bcast_S_S16x19 (constant S_ .f32 0x3F800000#32)
  Host.negf (addf (mulf se (logSigR p)) (mulf (subf one se) (logSigR (Host.negf p))))

/-- The mean over the 16 · 19 = 304 entries: their sum from zero, divided by 304. -/
def meanR (l : FVec F S16x19 .f32) : FVec F S_ .f32 :=
  Host.divf (Host.reduceAdd l (constant S_ .f32 0x00000000#32) reducesTo_S16x19_S_d0_1 h_S_) (constant S_ .f32 0x43980000#32)

/-- The reference's result. -/
def refOut (p : FVec F S16x19 .f32) (t : IVec S16x1024x2048 32) : FVec F S_ .f32 := meanR (lossR (seR t) p)

end Cert.ReferenceIdeal.RefTerms

end
-- ==== Proof.RefCount.lean ====
/-
  The reference's per-class counts are positive exactly where the class occurs.

  The counts are a scatter-add of ones into zeros: a left fold over the 16 · 2097152 = 2²⁵ pixel positions in row-major
  order, each position adding 1 at the place (sample, label) its index pair names, when that place is inside the
  16 × 19 array.  The argument never looks at that list of positions:

  * for ANY list of positions the fold adds, at each place, the number of positions of the list landing there
    (induction on the list, the accumulator general);
  * that number is at most the list's length 2²⁵ < 2³¹, so as a 32-bit word it is positive in the signed order exactly
    when it is not zero, that is when SOME position lands at the place;
  * position (b', k) lands at (b', label of pixel k of sample b'): component 0 of its index pair is the iota b' (not
    negative, so kept), component 1 is the label (not negative in range, so kept), and in range the label is below 19, so
    the place is always inside;
  * the pixels of a sample are laid out row-major, k = 2048 r + w, so "some k of sample b carries label c" is "some
    (r, w) does".
-/
import proofs.«410181_j15960098471942_3_alg».proof.Proof.RefTerms
import proofs.«410181_j15960098471942_3_alg».proof.Proof.Spec
import Idealize.ShloMosaic.Lib.StableHlo.Predicate
import Idealize.ShloMosaic.Lib.Pipeline.Value

noncomputable section

namespace Cert.ReferenceIdeal.RefCount

open Idealize.ShloMosaic Idealize.ShloMosaic.ValueIdx Cert.ReferenceIdeal

variable [Facts]
open Facts₀ Facts

/-! ## The fold, over any list of update positions -/

/-- The number of update positions: 16 · 2097152 = 2²⁵. -/
theorem numel_u : S16x2097152.numel = 33554432 := by
  simp [Shape.numel, Fin.prod_univ_two]

/-- Folding "add the update at the landing place, if there is one" over a list of update positions, every update
    being 1, adds at each place the number of positions of the list that land there. -/
theorem foldl_count {w : Nat} {s si u : Shape} (d : ScatterDims s si u) (idx : IVec si w) (upd : u.Idx → BitVec 32)
    (hupd : ∀ j, upd j = 1#32) (L : List (Fin u.numel)) (x : s.Idx → BitVec 32) (i' : s.Idx) :
    (L.foldl (fun r n =>
        match d.resultIdx? (u.rowMajor.symm n) idx with
        | some i => fun i' => if i' = i then IntOp.addi (r i) (upd (u.rowMajor.symm n)) else r i'
        | none => r) x) i'
      = x i' + BitVec.ofNat 32 (L.countP fun n => d.resultIdx? (u.rowMajor.symm n) idx = some i') := by
  induction L generalizing x with
  | nil => simp
  | cons n L ih =>
    rw [List.foldl_cons, ih, List.countP_cons]
    cases hn : d.resultIdx? (u.rowMajor.symm n) idx with
    | none => simp
    | some i =>
      by_cases hi : i' = i
      · subst hi
        simp [IntOp.addi, hupd, BitVec.ofNat_add, BitVec.add_assoc, BitVec.add_comm]
      · have : ¬ (i = i') := fun h => hi h.symm
        simp [hi, this]

/-- A scatter-add of ones: each entry grows by the number of update positions that land on it. -/
theorem scatter_ones_apply {w : Nat} {s si u : Shape} (d : ScatterDims s si u) (idx : IVec si w) (upd : u.Idx → BitVec 32)
    (hupd : ∀ j, upd j = 1#32) (x : s.Idx → BitVec 32) (i' : s.Idx) :
    Host.scatter d IntOp.addi x idx upd i'
      = x i' + BitVec.ofNat 32 ((List.finRange u.numel).countP fun n => d.resultIdx? (u.rowMajor.symm n) idx = some i') := by
  unfold Host.scatter
  exact foldl_count d idx upd hupd _ x i'

/-! ## Words -/
/-- A count below 2³¹, as a word, is positive in the signed order exactly when it is not zero. -/
theorem sgt_zero_ofNat_iff (N : Nat) (hN : N < 2 ^ 31) : IntOp.cmpi .sgt (BitVec.ofNat 32 N) 0#32 = 1#1 ↔ 0 < N := by
  rw [StableHlo.Predicate.sgt_iff_toNat (by rw [BitVec.toNat_ofNat]; omega) (by decide)]
  simp only [BitVec.toNat_ofNat]
  omega

/-- A word below 2³¹ is not negative: the signed compare with zero fails. -/
theorem slt_zero_of_small (a : BitVec 32) (ha : a.toNat < 2 ^ 31) : IntOp.cmpi .slt a 0#32 = 0#1 := by
  apply eq_zero_of_ne_one
  intro h
  have := (StableHlo.Predicate.slt_iff_toNat ha (by decide)).1 h
  simp at this

/-! ## The index pairs, read at an index -/

/-- The sample number of row `k`: the iota, kept because it is not negative. -/
theorem rowsR_apply (k : S16x1.Idx) : RefTerms.rowsR k = BitVec.ofNat 32 (k 0).val := by
  have h16 : (k 0).val < 16 := (k 0).isLt
  have hv2 : (broadcastInDim S16x1 ![0] bcast_S16_S16x1_0 (iotaInDim S16 32 0)) k = BitVec.ofNat 32 (k 0).val := by
    rw [broadcastInDim_apply (s := S16) (t := S16x1) ![0] bcast_S16_S16x1_0 (iotaInDim S16 32 0) k (ix1 (⟨(k 0).val, h16⟩ : Fin 16))
      (fun a => by match a with | ⟨0, _⟩ => rfl)]
    rfl
  show Scalar.select (IntOp.cmpi .slt ((broadcastInDim S16x1 ![0] bcast_S16_S16x1_0 (iotaInDim S16 32 0)) k) 0#32)
      (IntOp.addi ((broadcastInDim S16x1 ![0] bcast_S16_S16x1_0 (iotaInDim S16 32 0)) k) 16#32)
      ((broadcastInDim S16x1 ![0] bcast_S16_S16x1_0 (iotaInDim S16 32 0)) k) = _
  rw [hv2, slt_zero_of_small _ (by simp only [BitVec.toNat_ofNat]; omega), select_zero]

/-- The row-major reshape: entry `k = 2048 r + w` of row `b` is the label at `(b, r, w)`. -/
theorem flatR_apply (t : IVec S16x1024x2048 32) (b : Fin 16) (r : Fin 1024) (w : Fin 2048) (k : Fin 2097152)
    (h : k.val = r.val * 2048 + w.val) : RefTerms.flatR t (ix2 b k) = t (ix3 b r w) := by
  unfold RefTerms.flatR
  refine shapeCast_apply (s := S16x1024x2048) (t := S16x2097152) t _ (ix2 b k) (ix3 b r w) ?_
  rw [Shape.rowMajor_val_two, Shape.rowMajor_val_three]
  show (b.val * 1024 + r.val) * 2048 + w.val = b.val * 2097152 + k.val
  omega

/-- In range, every entry of the reshaped labels is a class number. -/
theorem flatR_lt (t : IVec S16x1024x2048 32) (ht : Cert.Spec.InRange t) (j : S16x2097152.Idx) :
    (RefTerms.flatR t j).toNat < 19 :=
  Cert.Spec.InRange.toNat_lt ht _

/-- In range no label is negative, so the class index is the label itself. -/
theorem colsR_apply (t : IVec S16x1024x2048 32) (ht : Cert.Spec.InRange t) (j : S16x2097152.Idx) :
    RefTerms.colsR t j = RefTerms.flatR t j := by
  show Scalar.select (IntOp.cmpi .slt (RefTerms.flatR t j) 0#32) (IntOp.addi (RefTerms.flatR t j) 19#32) (RefTerms.flatR t j) = _
  rw [slt_zero_of_small _ (by have := flatR_lt t ht j; omega), select_zero]

/-- Component 0 of a pixel's index pair is its sample number. -/
theorem idxR_apply_zero (t : IVec S16x1024x2048 32) (q : S16x2097152x2.Idx) (h : (q 2).val = 0) :
    RefTerms.idxR t q = BitVec.ofNat 32 (q 0).val := by
  have h0 : (q 0).val < 16 := (q 0).isLt
  have h1 : (q 1).val < 2097152 := (q 1).isLt
  unfold RefTerms.idxR
  rw [concatenate_pair_apply_left (t := S16x2097152x2) (s₁ := S16x2097152x1) (s₂ := S16x2097152x1) 2 _ _ _ q rfl
    (ix3 (⟨(q 0).val, h0⟩ : Fin 16) (⟨(q 1).val, h1⟩ : Fin 2097152) (0 : Fin 1))
    (fun b => by match b with | ⟨0, _⟩ => rfl | ⟨1, _⟩ => rfl | ⟨2, _⟩ => exact h.symm)]
  rw [broadcastInDim_apply (s := S16x2097152) (t := S16x2097152x1) ![0, 1] _ _ _
    (ix2 (⟨(q 0).val, h0⟩ : Fin 16) (⟨(q 1).val, h1⟩ : Fin 2097152))
    (fun a => by match a with | ⟨0, _⟩ => rfl | ⟨1, _⟩ => rfl)]
  rw [broadcastInDim_apply (s := S16x1) (t := S16x2097152) ![0, 1] _ _ _
    (ix2 (⟨(q 0).val, h0⟩ : Fin 16) (0 : Fin 1))
    (fun a => by match a with | ⟨0, _⟩ => rfl | ⟨1, _⟩ => rfl)]
  rw [rowsR_apply]

/-- Component 1 of a pixel's index pair is its label. -/
theorem idxR_apply_one (t : IVec S16x1024x2048 32) (ht : Cert.Spec.InRange t) (q : S16x2097152x2.Idx) (h : (q 2).val = 1) :
    RefTerms.idxR t q = RefTerms.flatR t (ix2 (⟨(q 0).val, (q 0).isLt⟩ : Fin 16) (⟨(q 1).val, (q 1).isLt⟩ : Fin 2097152)) := by
  have h0 : (q 0).val < 16 := (q 0).isLt
  have h1 : (q 1).val < 2097152 := (q 1).isLt
  unfold RefTerms.idxR
  rw [concatenate_pair_apply_right (t := S16x2097152x2) (s₁ := S16x2097152x1) (s₂ := S16x2097152x1) 2 _ _ _ q rfl rfl
    (ix3 (⟨(q 0).val, h0⟩ : Fin 16) (⟨(q 1).val, h1⟩ : Fin 2097152) (0 : Fin 1))
    (fun b hb => by match b with | ⟨0, _⟩ => rfl | ⟨1, _⟩ => rfl | ⟨2, _⟩ => exact absurd rfl hb)
    (by show 0 + 1 = (q 2).val; omega)]
  rw [broadcastInDim_apply (s := S16x2097152) (t := S16x2097152x1) ![0, 1] _ _ _
    (ix2 (⟨(q 0).val, h0⟩ : Fin 16) (⟨(q 1).val, h1⟩ : Fin 2097152))
    (fun a => by match a with | ⟨0, _⟩ => rfl | ⟨1, _⟩ => rfl)]
  rw [colsR_apply t ht]

/-! ## Where a pixel lands -/

/-- The scatter's dimension numbers: no window axes, both operand axes indexed, the index pair on the last axis. -/
abbrev dS : ScatterDims S16x19 S16x2097152x2 S16x2097152 := scatter_S16x19_S16x2097152x2_S16x2097152_n_01_01_2

/-- Pixel `j` reads component `c` of its index pair at `(j 0, j 1, c)`. -/
theorem siIdx_val0 (j : S16x2097152.Idx) (c : Fin (dS.scatterDimsToOperandDims.length)) :
    ((dS.siIdx j c) 0).val = (j 0).val := rfl
theorem siIdx_val1 (j : S16x2097152.Idx) (c : Fin (dS.scatterDimsToOperandDims.length)) :
    ((dS.siIdx j c) 1).val = (j 1).val := rfl
theorem siIdx_val2 (j : S16x2097152.Idx) (c : Fin (dS.scatterDimsToOperandDims.length)) :
    ((dS.siIdx j c) 2).val = c.val := rfl

/-- No window axes: the window coordinate is 0 on both operand axes. -/
theorem window_zero (j : S16x2097152.Idx) (a : Fin S16x19.rank) : dS.window j a = 0 := rfl

/-- Operand axis 0 starts at the pixel's sample number. -/
theorem start0 (t : IVec S16x1024x2048 32) (j : S16x2097152.Idx) :
    dS.start j (RefTerms.idxR t) 0 = ((j 0).val : Int) := by
  have hm : (0 : Fin S16x19.rank) ∈ dS.scatterDimsToOperandDims := List.mem_cons_self
  unfold ScatterDims.start
  rw [dif_pos hm, idxR_apply_zero t _ rfl, siIdx_val0]
  exact StableHlo.Predicate.toInt_ofNat_small _ (by have : (j 0).val < 16 := (j 0).isLt; omega)

/-- Operand axis 1 starts at the pixel's label. -/
theorem start1 (t : IVec S16x1024x2048 32) (ht : Cert.Spec.InRange t) (j : S16x2097152.Idx) :
    dS.start j (RefTerms.idxR t) 1 = ((RefTerms.flatR t j).toNat : Int) := by
  have hm : (1 : Fin S16x19.rank) ∈ dS.scatterDimsToOperandDims := List.mem_cons_of_mem _ List.mem_cons_self
  unfold ScatterDims.start
  rw [dif_pos hm, idxR_apply_one t ht _ rfl]
  have e : ∀ q : S16x2097152x2.Idx, (q 0).val = (j 0).val → (q 1).val = (j 1).val →
      ix2 (⟨(q 0).val, (q 0).isLt⟩ : Fin 16) (⟨(q 1).val, (q 1).isLt⟩ : Fin 2097152) = j := by
    intro q e0 e1
    funext a; match a with | ⟨0, _⟩ => exact Fin.ext e0 | ⟨1, _⟩ => exact Fin.ext e1
  rw [e _ rfl rfl]
  exact StableHlo.Predicate.toInt_eq_toNat_of_lt (by have := flatR_lt t ht j; omega)

/-- Where pixel `j` lands: at (its sample, its label), always inside the operand. -/
theorem landing_iff (t : IVec S16x1024x2048 32) (ht : Cert.Spec.InRange t) (j : S16x2097152.Idx) (b : Fin 16) (c : Fin 19) :
    dS.resultIdx? j (RefTerms.idxR t) = some (ix2 b c) ↔ (j 0).val = b.val ∧ (RefTerms.flatR t j).toNat = c.val := by
  have h0 : (j 0).val < 16 := (j 0).isLt
  have h1 := flatR_lt t ht j
  have s0 := start0 t j
  have s1 := start1 t ht j
  have H : ∀ a, 0 ≤ dS.start j (RefTerms.idxR t) a + dS.window j a
      ∧ dS.start j (RefTerms.idxR t) a + dS.window j a < S16x19.size a := by
    intro a
    match a with
    | ⟨0, _⟩ =>
      show 0 ≤ dS.start j (RefTerms.idxR t) 0 + ((0 : Nat) : Int) ∧ dS.start j (RefTerms.idxR t) 0 + ((0 : Nat) : Int) < ((16 : Nat) : Int)
      omega
    | ⟨1, _⟩ =>
      show 0 ≤ dS.start j (RefTerms.idxR t) 1 + ((0 : Nat) : Int) ∧ dS.start j (RefTerms.idxR t) 1 + ((0 : Nat) : Int) < ((19 : Nat) : Int)
      omega
  unfold ScatterDims.resultIdx?
  rw [dif_pos H, Option.some.injEq]
  constructor
  · intro h
    have e0 : (dS.start j (RefTerms.idxR t) 0 + ((0 : Nat) : Int)).toNat = b.val := congrArg Fin.val (congrFun h 0)
    have e1 : (dS.start j (RefTerms.idxR t) 1 + ((0 : Nat) : Int)).toNat = c.val := congrArg Fin.val (congrFun h 1)
    omega
  · intro h
    funext a
    apply Fin.ext
    match a with
    | ⟨0, _⟩ =>
      show (dS.start j (RefTerms.idxR t) 0 + ((0 : Nat) : Int)).toNat = b.val
      omega
    | ⟨1, _⟩ =>
      show (dS.start j (RefTerms.idxR t) 1 + ((0 : Nat) : Int)).toNat = c.val
      omega

/-! ## The counts -/

/-- The count at `i'` is the number of pixels landing there, as a word. -/
theorem countsR_apply (t : IVec S16x1024x2048 32) (i' : S16x19.Idx) :
    RefTerms.countsR t i' = BitVec.ofNat 32 ((List.finRange S16x2097152.numel).countP fun n =>
      dS.resultIdx? (S16x2097152.rowMajor.symm n) (RefTerms.idxR t) = some i') := by
  unfold RefTerms.countsR
  rw [scatter_ones_apply _ _ (broadcastInDim S16x2097152 ![] bcast_S_S16x2097152 (constantI S_ 32 1#32)) (fun _ => rfl)]
  exact BitVec.zero_add _

/-- The reference's count of class `c` in sample `b` is positive exactly when the class occurs there. -/
theorem counts_pos_iff (t : IVec S16x1024x2048 32) (ht : Cert.Spec.InRange t) (b : Fin 16) (c : Fin 19) :
    cmpi .sgt (RefTerms.countsR t) (broadcastInDim S16x19 ![] bcast_S_S16x19 (constantI S_ 32 0#32)) (ix2 b c) = 1#1
      ↔ Cert.Spec.Present t b c := by
  show IntOp.cmpi .sgt (RefTerms.countsR t (ix2 b c)) 0#32 = 1#1 ↔ _
  rw [countsR_apply]
  have hN : (List.finRange S16x2097152.numel).countP (fun n =>
      dS.resultIdx? (S16x2097152.rowMajor.symm n) (RefTerms.idxR t) = some (ix2 b c)) ≤ 33554432 :=
    (List.countP_le_length.trans (List.length_finRange).le).trans numel_u.le
  rw [sgt_zero_ofNat_iff _ (by omega), List.countP_pos_iff]
  constructor
  · rintro ⟨n, -, hn⟩
    obtain ⟨e0, e1⟩ := (landing_iff t ht _ b c).1 (of_decide_eq_true hn)
    generalize S16x2097152.rowMajor.symm n = j at e0 e1
    have h1 : (j 1).val < 2097152 := (j 1).isLt
    have ej : j = ix2 b (⟨(j 1).val, h1⟩ : Fin 2097152) := by
      funext a; match a with | ⟨0, _⟩ => exact Fin.ext e0 | ⟨1, _⟩ => rfl
    refine ⟨⟨(j 1).val / 2048, by omega⟩, ⟨(j 1).val % 2048, Nat.mod_lt _ (by decide)⟩, ?_⟩
    rw [← flatR_apply t b _ _ ⟨(j 1).val, h1⟩ (by show (j 1).val = (j 1).val / 2048 * 2048 + (j 1).val % 2048; omega), ← ej]
    exact e1
  · rintro ⟨r, w, h⟩
    have hk : r.val * 2048 + w.val < 2097152 := by have := r.isLt; have := w.isLt; omega
    refine ⟨S16x2097152.rowMajor (ix2 b (⟨r.val * 2048 + w.val, hk⟩ : Fin 2097152)), List.mem_finRange _, ?_⟩
    rw [decide_eq_true_eq, Equiv.symm_apply_apply, landing_iff t ht]
    exact ⟨rfl, by rw [flatR_apply t b r w _ rfl]; exact h⟩

end Cert.ReferenceIdeal.RefCount

end
-- ==== Proof.RefRun.lean ====
/-
  The reference program's run. Its @main is a straight line of host operations once the two calls
  (each a log-sigmoid, itself calling the softplus) are unfolded at their call sites: seventy-four operations
  in all. Every weakly fair execution therefore terminates with each buffer at the fold of the operations'
  results over the launch contents; at the result buffer that fold is the composed term `RefTerms.refOut` of
  the two arguments, and no operation writes an argument buffer.
-/
import proofs.«410181_j15960098471942_3_alg».proof.Proof.RefTerms
import Idealize.ShloMosaic.Lib.StableHlo.Run

noncomputable section

namespace Cert.ReferenceIdeal.RefRun

open Idealize.ShloMosaic Idealize.SL.Sem Cert.ReferenceIdeal
open Idealize.ShloMosaic.TcCoe Idealize.ShloMosaic.StableHlo

variable {F : FTy → Type} [FloatOps F] [Facts]
open Facts₀ Facts

/-- @main's operations in order, the calls unfolded. The first thirty are @main's own: the labels flattened to
    one row per sample; the sample numbers and the labels, each with its negative values moved up by the axis
    length; the two joined into the scatter's index pairs; ones scatter-added into zeros (the counts); the test
    `count > 0` converted to a float. Then `log_sigmoid(p)` — the negation, the softplus's fourteen into
    `main_call0.call0`'s buffers, the negation —, the product with the indicator, `1 - indicator`, the negated
    argument, `log_sigmoid_0` of it into `main_call1`'s buffers (sixteen again), the second product, the sum,
    its negation, and the mean: the sum from zero divided by 304. -/
abbrev ops : List (HloOp τ sig (Elt F)) :=
  [ reshape main_arg1 main_v0 rfl shapeCasts_S16x1024x2048_S16x2097152,
    nullary main_v1 (iotaInDim S16 32 0),
    unary main_v1 main_v2 (broadcastInDim S16x1 ![0] bcast_S16_S16x1_0),
    nullary main_c (constantI S_ 32 0#32),
    unary main_c main_v3 (broadcastInDim S16x19 ![] bcast_S_S16x19),
    nullary main_c_0 (constantI S_ 32 0#32),
    unary main_c_0 main_v4 (broadcastInDim S16x1 ![] bcast_S_S16x1),
    binary main_v2 main_v4 main_v5 (cmpi .slt),
    nullary main_c_1 (constantI S_ 32 16#32),
    unary main_c_1 main_v6 (broadcastInDim S16x1 ![] bcast_S_S16x1),
    binary main_v2 main_v6 main_v7 addi,
    ternary main_v5 main_v7 main_v2 main_v8 select,
    nullary main_c_2 (constantI S_ 32 0#32),
    unary main_c_2 main_v9 (broadcastInDim S16x2097152 ![] bcast_S_S16x2097152),
    binary main_v0 main_v9 main_v10 (cmpi .slt),
    nullary main_c_3 (constantI S_ 32 19#32),
    unary main_c_3 main_v11 (broadcastInDim S16x2097152 ![] bcast_S_S16x2097152),
    binary main_v0 main_v11 main_v12 addi,
    ternary main_v10 main_v12 main_v0 main_v13 select,
    unary main_v8 main_v14 (broadcastInDim S16x2097152 ![0, 1] bcast_S16x1_S16x2097152_0_1),
    unary main_v14 main_v15 (broadcastInDim S16x2097152x1 ![0, 1] bcast_S16x2097152_S16x2097152x1_0_1),
    unary main_v13 main_v16 (broadcastInDim S16x2097152x1 ![0, 1] bcast_S16x2097152_S16x2097152x1_0_1),
    binary main_v15 main_v16 main_v17 (fun a b => concatenate S16x2097152x2 2 [⟨S16x2097152x1, a⟩, ⟨S16x2097152x1, b⟩] concatenates_S16x2097152x1_S16x2097152x1_S16x2097152x2_d2),
    nullary main_c_4 (constantI S_ 32 1#32),
    unary main_c_4 main_v18 (broadcastInDim S16x2097152 ![] bcast_S_S16x2097152),
    ternary main_v3 main_v17 main_v18 main_v19 (fun x i u => Host.scatter scatter_S16x19_S16x2097152x2_S16x2097152_n_01_01_2 IntOp.addi x i u),
    nullary main_c_5 (constantI S_ 32 0#32),
    unary main_c_5 main_v20 (broadcastInDim S16x19 ![] bcast_S_S16x19),
    binary main_v19 main_v20 main_v21 (cmpi .sgt),
    unary main_v21 main_v22 (uitofp .f32),
    TRef.unary (.of main_arg0 : TRef sig ⟨S16x19, .f32⟩) main_call0.v0 Host.negf,
    TRef.nullary main_call0.call0.cst (constant S_ .f32 0x00000000#32),
    TRef.unary main_call0.call0.cst main_call0.call0.v0 (broadcastInDim S16x19 ![] bcast_S_S16x19),
    TRef.binary main_call0.v0 main_call0.call0.v0 main_call0.call0.v1 maximumf,
    TRef.unary main_call0.call0.cst main_call0.call0.v2 (broadcastInDim S16x19 ![] bcast_S_S16x19),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S16x19 ![] bcast_S_S16x19),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    binary main_v22 main_v23 main_v24 mulf,
    nullary main_cst (constant S_ .f32 0x3F800000#32),
    unary main_cst main_v25 (broadcastInDim S16x19 ![] bcast_S_S16x19),
    binary main_v25 main_v22 main_v26 subf,
    unary main_arg0 main_v27 Host.negf,
    TRef.unary (.of main_v27 : TRef sig ⟨S16x19, .f32⟩) main_call1.v0 Host.negf,
    TRef.nullary main_call1.call0.cst (constant S_ .f32 0x00000000#32),
    TRef.unary main_call1.call0.cst main_call1.call0.v0 (broadcastInDim S16x19 ![] bcast_S_S16x19),
    TRef.binary main_call1.v0 main_call1.call0.v0 main_call1.call0.v1 maximumf,
    TRef.unary main_call1.call0.cst main_call1.call0.v2 (broadcastInDim S16x19 ![] bcast_S_S16x19),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S16x19 ![] bcast_S_S16x19),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_v26 main_v28 main_v29 mulf,
    binary main_v24 main_v29 main_v30 addf,
    unary main_v30 main_v31 Host.negf,
    nullary main_cst_6 (constant S_ .f32 0x00000000#32),
    binary main_v31 main_cst_6 main_v32 (fun x v => Host.reduceAdd x v reducesTo_S16x19_S_d0_1 h_S_),
    nullary main_cst_7 (constant S_ .f32 0x43980000#32),
    binary main_v32 main_cst_7 main_v33 Host.divf ]

/-- @main is that straight line: a call is its callee's body applied to the call's buffers, and a step followed by
    the rest of the line is the line's next link, so the two sides agree by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨reshape_bufs_sub .., nullary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., nullary_bufs_sub ..,
    unary_bufs_sub .., ternary_bufs_sub .., nullary_bufs_sub .., unary_bufs_sub .., binary_bufs_sub .., unary_bufs_sub ..,
    unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..,
    unary_bufs_sub ..,
    binary_bufs_sub .., nullary_bufs_sub .., unary_bufs_sub .., binary_bufs_sub .., unary_bufs_sub ..,
    unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..,
    unary_bufs_sub ..,
    binary_bufs_sub .., binary_bufs_sub .., unary_bufs_sub .., nullary_bufs_sub .., binary_bufs_sub .., nullary_bufs_sub ..,
    binary_bufs_sub ..⟩

attribute [local irreducible] Host.scatter Host.reduceAdd concatenate shapeCast in
set_option maxRecDepth 8192 in
set_option maxHeartbeats 1000000 in
/-- The fold at the result buffer is `RefTerms.refOut` of the two arguments' contents. Each operation's result at its
    own buffer is its function of its operands' contents and at any other buffer what was there, so the fold read at
    the result buffer is the operations composed, in @main's order; the typed references of the callees' operations
    move contents along an equation of a type with itself, the identity; and `RefTerms.refOut`, unfolded through
    its named stages, is that same composition. The scatter, the reduction, the concatenation and the reshape are
    kept folded throughout: the equation never looks inside them. -/
theorem out_eq (V : Valuation τ sig (Elt F)) :
    after ops V (main_v33 : DevRef τ sig)
      = RefTerms.refOut (V (main_arg0 : DevRef τ sig)) (V (main_arg1 : DevRef τ sig)) := by
  after_results_simp
  simp only [TRef.ofBuf, TRef.toBuf, cast_eq]
  simp only [RefTerms.refOut, RefTerms.meanR, RefTerms.lossR, RefTerms.logSigR, RefTerms.softplusR, RefTerms.seR,
    RefTerms.countsR, RefTerms.idxR, RefTerms.colsR, RefTerms.rowsR, RefTerms.flatR]
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result buffer at `RefTerms.refOut` of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v33) = RefTerms.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v33).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RefRun

end
-- ==== Proof.PreRange.lean ====
/-
  The statement's precondition, read back: it is the conjunction of "every logit is finite" and "every label lies in
  `[0, 19)`"; the second conjunct is an all-reduction by `and` of `(t ≥ 0) ∧ (t < 19)` over the label array, so where
  the whole predicate is 1 every label is in range.
-/
import proofs.«410181_j15960098471942_3_alg».proof.Pre_finite_inputs
import proofs.«410181_j15960098471942_3_alg».proof.Proof.Spec
import Idealize.ShloMosaic.Lib.ReduceAll
import Idealize.ShloMosaic.Lib.StableHlo.Predicate

noncomputable section

namespace Cert.PreRange

open Idealize.ShloMosaic Idealize.ShloMosaic.ValueIdx
open Cert.Pre_finite_inputs

variable {F : FTy → Type} [FloatOps F] [Cert.Pre_finite_inputs.Facts]
open Cert.Pre_finite_inputs.Facts

instance : Subsingleton S_.Idx := ⟨fun a b => funext fun d => d.elim0⟩

/-- Where the precondition holds every label is a class number. -/
theorem inRange_of_pre (p : FVec F S16x19 .f32) (t : IVec S16x1024x2048 32)
    (h : fn (F := F) p t = fun _ => 1#1) : Cert.Spec.InRange t := by
  intro i
  have h0 := congrFun h ix0
  dsimp only [fn] at h0
  have h1 := (IntOp.andi_eq_one.1 h0).2
  have h2 := Host.reduce_andi_all _ _ _ _ ix0 h1 i
  obtain ⟨ha, hb⟩ := IntOp.andi_eq_one.1 h2
  have e0 : broadcastInDim S16x1024x2048 ![] bcast_S_S16x1024x2048 (constantI S_ 32 0#32) i = 0#32 := rfl
  have e19 : broadcastInDim S16x1024x2048 ![] bcast_S_S16x1024x2048 (constantI S_ 32 19#32) i = 19#32 := rfl
  have ha' : IntOp.cmpi .sge (t i) (0#32) = 1#1 := by rw [← e0]; exact ha
  have hb' : IntOp.cmpi .slt (t i) (19#32) = 1#1 := by rw [← e19]; exact hb
  rw [IntOp.cmpi_sge] at ha'
  rw [IntOp.cmpi_slt] at hb'
  exact ⟨by simpa using ha', by simpa using hb'⟩

end Cert.PreRange
end
-- ==== Proof.FloatRow.lean ====
/-
  The kernel's float arithmetic on one row of nineteen classes joined to the reference's, entry by entry, at the
  ideal values (a float an extended real). Both compute `-(s · ℓ(p) + (1 - s) · ℓ(-p))` with
  `ℓ(x) = -(max(-x, 0) + log(1 + exp(-|(-x) - 0|)))` behind the guard `y ≠ y` at `y = (-x) - 0`, which both sides keep as it stands. The two texts differ
  in spelling only: the kernel writes a negation as a difference from zero (`0 - x = -x` among the extended
  reals), reshapes its row between [1, 1, 19] and [1, 19] (the same entries), and tests "not equal" ordered where
  the reference tests it unordered (at the ideal values both predicates decide `x ≠ y`).
-/
import proofs.«410181_j15960098471942_3_alg».proof.Proof.Gen.KernelIdeal.Skeleton
import proofs.«410181_j15960098471942_3_alg».proof.Proof.RefTerms
import Idealize.ShloMosaic.Lib.Pipeline.Value
import Idealize.ShloMosaic.Lib.ValueIdx
import Idealize.ShloMosaic.Lib.ValueLayout
import Idealize.ShloMosaic.PureOps.Ideal.Laws

noncomputable section

namespace Cert.Bridge.FloatRow

open Idealize.ShloMosaic Idealize.ShloMosaic.ValueIdx

variable [Cert.KernelIdeal.Facts] [Cert.ReferenceIdeal.Facts]

/-- A scalar constant of the reference broadcast over the 16 × 19 array reads, at every entry, the value its
    word denotes. -/
theorem splat_apply (w : BitVec 32) (j : Cert.ReferenceIdeal.S16x19.Idx) :
    broadcastInDim Cert.ReferenceIdeal.S16x19 ![] Cert.ReferenceIdeal.Facts₀.bcast_S_S16x19
      (constant (F := Ideal) Cert.ReferenceIdeal.S_ .f32 w) j = FloatOps.ofBits (F := Ideal) .f32 w := rfl

/-- The kernel's row with its leading unit axis dropped reads the row's entries. -/
theorem pay5_apply (X : Vec Ideal Cert.KernelIdeal.S1x1x19 .f32) (c : Fin 19) :
    Cert.KernelIdeal.Gen.k0_pay5 (F := Ideal) X (ix2 0 c) = X (ix3 0 0 c) := by
  unfold Cert.KernelIdeal.Gen.k0_pay5
  exact shapeCast_1ab_ab_apply X _ 0 c

/-- The kernel's first log-sigmoid at an entry is the reference's: both are `-(max(-p, 0) + log(1 + exp(-|(-p) - 0|)))`
    behind the guard `(-p) - 0 ≠ (-p) - 0`; the kernel writes each negation as a difference from zero, and at the
    ideal values its ordered and the reference's unordered "not equal" are one test. -/
theorem pay6_entry (X : Vec Ideal Cert.KernelIdeal.S1x1x19 .f32) (P : FVec Ideal Cert.ReferenceIdeal.S16x19 .f32)
    (b : Fin 16) (c : Fin 19) (hX : X (ix3 0 0 c) = P (ix2 b c)) :
    Cert.KernelIdeal.Gen.k0_pay6 (F := Ideal) X (ix2 0 c) = Cert.ReferenceIdeal.RefTerms.logSigR P (ix2 b c) := by
  unfold Cert.KernelIdeal.Gen.k0_pay6 Cert.ReferenceIdeal.RefTerms.logSigR Cert.ReferenceIdeal.RefTerms.softplusR
  simp only [subf, addf, maximumf, select, cmpf, absf, exp, log1p, Host.negf, Host.absf, Host.exp, Host.log1p, broadcast,
    pay5_apply, hX]
  rw [splat_apply]
  simp only [Ideal.ofBits_def, Ideal.ofBits_zero_f32, Ideal.subf_def, Ideal.addf_def, Ideal.maximumf_def,
    Ideal.hostNegf_def, Ideal.negf_def, Ideal.hostAbsf_def, Ideal.hostUnary_exp_def, Ideal.hostUnary_log1p_def,
    Ideal.exp_def, Ideal.log1p_def, Ideal.cmpf_def, zero_sub]
  rfl

/-- The kernel's second softplus at an entry is the reference's softplus of the twice negated argument: the same
    expression at `-(-p)`, which the kernel writes `0 - (0 - p)`. -/
theorem pay7_entry (X : Vec Ideal Cert.KernelIdeal.S1x1x19 .f32) (P : FVec Ideal Cert.ReferenceIdeal.S16x19 .f32)
    (b : Fin 16) (c : Fin 19) (hX : X (ix3 0 0 c) = P (ix2 b c)) :
    Cert.KernelIdeal.Gen.k0_pay7 (F := Ideal) X (ix2 0 c)
      = Cert.ReferenceIdeal.RefTerms.softplusR (Host.negf (Host.negf P)) (ix2 b c) := by
  unfold Cert.KernelIdeal.Gen.k0_pay7 Cert.ReferenceIdeal.RefTerms.softplusR
  simp only [subf, addf, maximumf, select, cmpf, absf, exp, log1p, Host.negf, Host.absf, Host.exp, Host.log1p, broadcast,
    pay5_apply, hX]
  rw [splat_apply]
  simp only [Ideal.ofBits_def, Ideal.ofBits_zero_f32, Ideal.subf_def, Ideal.addf_def, Ideal.maximumf_def,
    Ideal.hostNegf_def, Ideal.negf_def, Ideal.hostAbsf_def, Ideal.hostUnary_exp_def, Ideal.hostUnary_log1p_def,
    Ideal.exp_def, Ideal.log1p_def, Ideal.cmpf_def, zero_sub]
  rfl

/-- The reference's log-sigmoid at an entry: the negated softplus of the negated argument. -/
theorem logSigR_apply (Q : FVec Ideal Cert.ReferenceIdeal.S16x19 .f32) (j : Cert.ReferenceIdeal.S16x19.Idx) :
    Cert.ReferenceIdeal.RefTerms.logSigR Q j = -(Cert.ReferenceIdeal.RefTerms.softplusR (Host.negf Q) j) := rfl

/-- One entry of the kernel's loss row is the reference's loss at that sample and class, given that the row of
    predictions and the presence indicator agree there: `0 - (s · ℓ(p) + (1 - s) · (0 - softplus(-(-p))))` against
    `-(s · ℓ(p) + (1 - s) · ℓ(-p))`, where `ℓ(-p) = -softplus(-(-p))`. -/
theorem row_entry (X : Vec Ideal Cert.KernelIdeal.S1x1x19 .f32) (acc : Vec Ideal Cert.KernelIdeal.S1x1 .i32)
    (P se : FVec Ideal Cert.ReferenceIdeal.S16x19 .f32) (b : Fin 16) (c : Fin 19)
    (hX : X (ix3 0 0 c) = P (ix2 b c))
    (hse : Cert.KernelIdeal.Gen.k0_pay4 (F := Ideal) acc (ix2 0 c) = se (ix2 b c)) :
    Cert.KernelIdeal.Gen.k0_pay3 (Cert.KernelIdeal.Gen.k0_pay4 acc) (Cert.KernelIdeal.Gen.k0_pay6 X) (Cert.KernelIdeal.Gen.k0_pay7 X)
        (Scalar.ofBits .f32 0x00000000#32) (ix3 0 0 c)
      = Cert.ReferenceIdeal.RefTerms.lossR se P (ix2 b c) := by
  unfold Cert.KernelIdeal.Gen.k0_pay3 Cert.ReferenceIdeal.RefTerms.lossR
  simp only [subf, addf, mulf, Host.negf, broadcast]
  rw [shapeCast_ab_1ab_apply, splat_apply, logSigR_apply (Host.negf P)]
  simp only [subf, addf, mulf, broadcast, pay6_entry X P b c hX, pay7_entry X P b c hX, hse]
  simp only [Ideal.ofBits_def, Ideal.ofBits_zero_f32, Ideal.subf_def, Ideal.addf_def, Ideal.mulf_def,
    Ideal.hostNegf_def, Ideal.negf_def, zero_sub]

end Cert.Bridge.FloatRow

end
-- ==== Proof.Bridge.lean ====
import proofs.«410181_j15960098471942_3_alg».proof.Proof.KernelPresent
import proofs.«410181_j15960098471942_3_alg».proof.Proof.RefCount
import proofs.«410181_j15960098471942_3_alg».proof.Proof.RefRun
import proofs.«410181_j15960098471942_3_alg».proof.Proof.PreRange
import proofs.«410181_j15960098471942_3_alg».proof.Proof.FloatRow
import proofs.«410181_j15960098471942_3_alg».proof.Proof.Gen.ReferenceIdeal
import Idealize.ShloMosaic.Lib.Pipeline.Value
import Idealize.ShloMosaic.Lib.ValueIdx
import Idealize.ShloMosaic.PureOps.Ideal.Laws

/-!
  The two programs meet.  Entry `(b, c)` of the kernel's row array and of the reference's loss array are the same
  arithmetic of the logit `p[b, c]` and an indicator; the kernel's indicator is bit `c` of the OR of `1 <<< label` over
  sample `b`, the reference's is "the scatter-added count of class `c` in sample `b` is positive"; with every label in
  `[0, 19)` both say "class `c` occurs in sample `b`".  Equal arrays have equal means.
-/

noncomputable section

namespace Cert.Bridge

open Idealize.ShloMosaic Idealize.ShloMosaic.TcCoe Idealize.ShloMosaic.ValueIdx Idealize.SL.Sem

open Classical in
/-- The reference's indicator at an entry: 1 where the class occurs in the sample, else 0. -/
theorem seR_apply (t : IVec Cert.ReferenceIdeal.S16x1024x2048 32) (ht : Cert.Spec.InRange t) (b : Fin 16) (c : Fin 19) :
    Cert.ReferenceIdeal.RefTerms.seR (F := Idealize.ShloMosaic.Ideal) t (ix2 b c) = if Cert.Spec.Present t b c then (1 : EReal) else 0 := by
  unfold Cert.ReferenceIdeal.RefTerms.seR
  show FloatOps.uitofp (F := Idealize.ShloMosaic.Ideal) .f32 (cmpi .sgt (Cert.ReferenceIdeal.RefTerms.countsR t) _ (ix2 b c)) = _
  by_cases hp : Cert.Spec.Present t b c
  · rw [if_pos hp, (Cert.ReferenceIdeal.RefCount.counts_pos_iff t ht b c).mpr hp]
    show (((1#1 : BitVec 1).toNat : ℝ) : EReal) = 1
    simp
  · rw [if_neg hp, eq_zero_of_ne_one (mt (Cert.ReferenceIdeal.RefCount.counts_pos_iff t ht b c).mp hp)]
    show (((0#1 : BitVec 1).toNat : ℝ) : EReal) = 0
    simp

variable (m : (ℓ : Loc Cert.KernelIdeal.nD Cert.KernelIdeal.τ Cert.KernelIdeal.sig) → Buf (Elt Idealize.ShloMosaic.Ideal) ℓ)

open Classical Cert.KernelIdeal in
/-- With every label a class number the two results are one: entry `(b, c)` of the kernel's row array is the
    reference's loss entry — the same arithmetic of the same logit and the same indicator — and both programs then
    take the same mean. -/
theorem kerOut_eq_refOut (c : Dev nD)
    (hr : Cert.Spec.InRange (m ((c : Thread nD τ).loc main_arg1) : IVec S16x1024x2048 32)) :
    (Cert.KernelIdeal.KV.kerOut m c : S_.Idx → Idealize.ShloMosaic.Ideal .f32)
      = Cert.ReferenceIdeal.RefTerms.refOut (F := Idealize.ShloMosaic.Ideal) (m ((c : Thread nD τ).loc main_arg0)) (m ((c : Thread nD τ).loc main_arg1)) := by
  have hrows : shapeCast S16x19 (Cert.KernelIdeal.KV.rowsArr m c) Gen.shapeCasts_S16x1x19_S16x19
      = Cert.ReferenceIdeal.RefTerms.lossR (F := Idealize.ShloMosaic.Ideal) (Cert.ReferenceIdeal.RefTerms.seR (m ((c : Thread nD τ).loc main_arg1)))
          (m ((c : Thread nD τ).loc main_arg0)) := by
    funext i
    obtain ⟨b, k, rfl⟩ : ∃ (b : Fin 16) (k : Fin 19), i = ix2 b k := ⟨i 0, i 1, eq_ix2 i⟩
    rw [shapeCast_apply _ _ (ix2 b k) (ix3 b 0 k) (by rw [Shape.rowMajor_val_three, Shape.rowMajor_val_two]; show (b.val * 1 + 0) * 19 + k.val = b.val * 19 + k.val; omega)]
    show Cert.KernelIdeal.KV.rowAt m c b (ix3 0 0 k) = _
    unfold Cert.KernelIdeal.KV.rowAt
    rw [Cert.KernelIdeal.KV.row_last m c (Cert.KernelIdeal.KV.lastPt b) (by show (4 * b.val + 3) % 4 = 3; omega)]
    refine Cert.Bridge.FloatRow.row_entry _ _ _ _ b k ?_ ?_
    · rw [Cert.KernelIdeal.KV.pblk_apply]
      refine congrArg _ (congrArg (fun z => ix2 z k) (Fin.ext ?_))
      show (4 * b.val + 3) / 4 = b.val
      omega
    · rw [Cert.KernelIdeal.BitsWord.pay4_apply, seR_apply _ hr]
      exact if_congr (Cert.KernelIdeal.KV.word_bit_present m c b k hr) rfl rfl
  unfold Cert.KernelIdeal.KV.kerOut Cert.ReferenceIdeal.RefTerms.refOut Cert.ReferenceIdeal.RefTerms.meanR
  rw [hrows]

end Cert.Bridge
end
-- ==== Proof.lean ====
/-
  The certificate's claims for the presence-encoding loss.  Both programs compute, for 16 samples and 19 classes,
  the binary cross-entropy `-(s · log σ(p) + (1 - s) · log σ(-p))` of the logits `p` against the indicator `s` of "the
  class occurs among the sample's 1024 × 2048 labels", averaged over the 304 entries.  The kernel finds the
  indicator by OR-ing the words `1 <<< label` of a sample (four tiles of 256 rows, an OR-tree per tile, an accumulator
  word across the tiles) and reading bit `c`; the reference by scatter-adding ones into a 16 × 19 table of counts and
  testing `count > 0`.  Under the precondition — every logit finite, every label in `[0, 19)` — the two indicators are
  one, the float arithmetic on them is the same entry by entry over the extended reals, and so are the means.

  * the three frames: the kernel's two are the generated frame runs; the reference's is its run with the result dropped;
  * `preserves`: the idealization rewrote nothing;
  * `algebraic`: the kernel's run read as "the result buffer holds the mean of the 16 loss rows" (the rows read off
    the frame run's per-point contents), the reference's run read as its composed term, and the bridge between them.
-/
import proofs.«410181_j15960098471942_3_alg».proof.Defs
import proofs.«410181_j15960098471942_3_alg».proof.Proof.Gen.Kernel
import proofs.«410181_j15960098471942_3_alg».proof.Proof.Gen.Kernel.Skeleton
import proofs.«410181_j15960098471942_3_alg».proof.Proof.Gen.Kernel.Launch
import proofs.«410181_j15960098471942_3_alg».proof.Proof.Gen.Kernel.Points
import proofs.«410181_j15960098471942_3_alg».proof.Proof.Gen.Kernel.Frame
import proofs.«410181_j15960098471942_3_alg».proof.Proof.Gen.KernelIdeal
import proofs.«410181_j15960098471942_3_alg».proof.Proof.Gen.KernelIdeal.Skeleton
import proofs.«410181_j15960098471942_3_alg».proof.Proof.Gen.KernelIdeal.Launch
import proofs.«410181_j15960098471942_3_alg».proof.Proof.Gen.KernelIdeal.Points
import proofs.«410181_j15960098471942_3_alg».proof.Proof.Gen.KernelIdeal.Frame
import proofs.«410181_j15960098471942_3_alg».proof.Proof.Gen.ReferenceIdeal
import proofs.«410181_j15960098471942_3_alg».proof.Proof.Gen.Pre_finite_inputs
import proofs.«410181_j15960098471942_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => ⟨(h c).2.1, (h c).2.2⟩)
    (Cert.ReferenceIdeal.RefRun.run (F := Ideal) m ρ)

theorem preserves : Cert.preserves_Kernel_KernelIdeal := trivial

/-- From memories agreeing on the arguments both programs end, with one result: the mean of the loss entries. -/
theorem algebraic : Cert.algebraic_KernelIdeal_ReferenceIdeal := by
  intro m ρ m' ρ' hpre hagree
  refine ⟨fun c => Cert.KernelIdeal.KV.kerOut m c, Cert.KernelIdeal.KV.run m ρ, ?_⟩
  refine (θ_run Cert.ReferenceIdeal.defs _ _).mono (fun _ h c => ⟨(h c).1.trans ?_, (h c).2.1, (h c).2.2⟩)
    (Cert.ReferenceIdeal.RefRun.run (F := Ideal) m' ρ')
  rw [(hagree c).1, (hagree c).2]
  exact (Cert.Bridge.kerOut_eq_refOut m c (Cert.PreRange.inRange_of_pre _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
